-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1440x91 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x91 : Shape := ⟨3, ![16, 900, 91]⟩
abbrev S16x900x4 : Shape := ⟨3, ![16, 900, 4]⟩
abbrev S1000x4 : Shape := ⟨2, ![1000, 4]⟩
abbrev S1000 : Shape := ⟨1, ![1000]⟩
abbrev S_ : Shape := ⟨0, ![]⟩

class Facts : Prop where
  bcast_S_S16x900x91 : S_.BroadcastsInDim S16x900x91 (![] : Fin 0 → Fin S16x900x91.rank)
  reducesTo_S16x900x91_S_d0_1_2 : S16x900x91.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S1000x4 : S_.BroadcastsInDim S1000x4 (![] : Fin 0 → Fin S1000x4.rank)
  reducesTo_S1000x4_S_d0_1 : S1000x4.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg3 : IVec S1000 32) (main_v13 : IVec S_ 1) (main_v15 : IVec S1000 1) (main_c_5 : IVec S_ 1) : IVec S_ 1 :=
  let main_v16 : IVec S_ 1 := (fun x v => Host.reduce IntOp.andi x v reducesTo_S1000_S_d0 h_S_) main_v15 main_c_5
  let main_v17 : IVec S_ 1 := andi main_v13 main_v16
  let main_c_6 : IVec S_ 32 := constantI S_ 32 91#32
  let main_v18 : IVec S1000 32 := broadcastInDim S1000 ![] bcast_S_S1000 main_c_6
  let main_v19 : IVec S1000 1 := cmpi .slt main_arg3 main_v18
  let main_c_7 : IVec S_ 1 := constantI S_ 1 1#1
  let main_v20 : IVec S_ 1 := (fun x v => Host.reduce IntOp.andi x v reducesTo_S1000_S_d0 h_S_) main_v19 main_c_7
  let main_v21 : IVec S_ 1 := andi main_v17 main_v20
  main_v21

def fn {F : FTy → Type} [FloatOps F] (main_arg0 : FVec F S16x900x91 .f32) (main_arg1 : FVec F S16x900x4 .f32) (main_arg2 : FVec F S1000x4 .f32) (main_arg3 : IVec S1000 32) : IVec S_ 1 :=
  let main_v0 : FVec F S16x900x91 .f32 := Host.absf main_arg0
  let main_cst : FVec F S_ .f32 := constant S_ .f32 0x7F800000#32
  let main_v1 : FVec F S16x900x91 .f32 := broadcastInDim S16x900x91 ![] bcast_S_S16x900x91 main_cst
  let main_v2 : IVec S16x900x91 1 := cmpf .olt main_v0 main_v1
  let main_c : IVec S_ 1 := constantI S_ 1 1#1
  let main_v3 : IVec S_ 1 := (fun x v => Host.reduce IntOp.andi x v reducesTo_S16x900x91_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1000x4 .f32 := Host.absf main_arg2
  let main_cst_2 : FVec F S_ .f32 := constant S_ .f32 0x7F800000#32
  let main_v10 : FVec F S1000x4 .f32 := broadcastInDim S1000x4 ![] bcast_S_S1000x4 main_cst_2
  let main_v11 : IVec S1000x4 1 := cmpf .olt main_v9 main_v10
  let main_c_3 : IVec S_ 1 := constantI S_ 1 1#1
  let main_v12 : IVec S_ 1 := (fun x v => Host.reduce IntOp.andi x v reducesTo_S1000x4_S_d0_1 h_S_) main_v11 main_c_3
  let main_v13 : IVec S_ 1 := andi main_v8 main_v12
  let main_c_4 : IVec S_ 32 := constantI S_ 32 0#32
  let main_v14 : IVec S1000 32 := broadcastInDim S1000 ![] bcast_S_S1000 main_c_4
  let main_v15 : IVec S1000 1 := cmpi .sge main_arg3 main_v14
  let main_c_5 : IVec S_ 1 := constantI S_ 1 1#1
  fn_part1 (F := F) main_arg3 main_v13 main_v15 main_c_5
-- ==== Kernel.lean ====
abbrev S16x900x91 : Shape := ⟨3, ![16, 900, 91]⟩
abbrev S16x900x4 : Shape := ⟨3, ![16, 900, 4]⟩
abbrev S1000x4 : Shape := ⟨2, ![1000, 4]⟩
abbrev S1000 : Shape := ⟨1, ![1000]⟩
abbrev S4 : Shape := ⟨1, ![4]⟩
abbrev S14400x91 : Shape := ⟨2, ![14400, 91]⟩
abbrev S14400x4 : Shape := ⟨2, ![14400, 4]⟩
abbrev S1000x1 : Shape := ⟨2, ![1000, 1]⟩
abbrev S1x91 : Shape := ⟨2, ![1, 91]⟩
abbrev S1000x91 : Shape := ⟨2, ![1000, 91]⟩
abbrev S91x1000 : Shape := ⟨2, ![91, 1000]⟩
abbrev S24x4 : Shape := ⟨2, ![24, 4]⟩
abbrev S1024x4 : Shape := ⟨2, ![1024, 4]⟩
abbrev S_ : Shape := ⟨0, ![]⟩
abbrev S91x1024 : Shape := ⟨2, ![91, 1024]⟩
abbrev S4x1024 : Shape := ⟨2, ![4, 1024]⟩
abbrev S1024x1 : Shape := ⟨2, ![1024, 1]⟩
abbrev S1024 : Shape := ⟨1, ![1024]⟩
abbrev S1x1024 : Shape := ⟨2, ![1, 1024]⟩
abbrev S14400x1024 : Shape := ⟨2, ![14400, 1024]⟩
abbrev S1440x91 : Shape := ⟨2, ![1440, 91]⟩
abbrev S1440x4 : Shape := ⟨2, ![1440, 4]⟩
abbrev S1440x1024 : Shape := ⟨2, ![1440, 1024]⟩
abbrev S1440x1 : Shape := ⟨2, ![1440, 1]⟩
abbrev S14400x1000 : Shape := ⟨2, ![14400, 1000]⟩
abbrev S16x900x1000 : Shape := ⟨3, ![16, 900, 1000]⟩

abbrev nBuf : Space → Nat
  | .hbm => 66
  | .vmem => 10
  | .smem => 0
  | _ => 0

abbrev bufTy : (tb : Table) → Fin (tcTables nBuf tb) → BufTy
  | .hbm, ⟨0, _⟩ => ⟨S16x900x91, .f32⟩
  | .hbm, ⟨1, _⟩ => ⟨S16x900x4, .f32⟩
  | .hbm, ⟨2, _⟩ => ⟨S1000x4, .f32⟩
  | .hbm, ⟨3, _⟩ => ⟨S1000, .i32⟩
  | .hbm, ⟨4, _⟩ => ⟨S4, .f32⟩
  | .hbm, ⟨5, _⟩ => ⟨S14400x91, .f32⟩
  | .hbm, ⟨6, _⟩ => ⟨S14400x4, .f32⟩
  | .hbm, ⟨7, _⟩ => ⟨S1000x1, .i32⟩
  | .hbm, ⟨8, _⟩ => ⟨S1x91, .i32⟩
  | .hbm, ⟨9, _⟩ => ⟨S1000x91, .i32⟩
  | .hbm, ⟨10, _⟩ => ⟨S1000x91, .i32⟩
  | .hbm, ⟨11, _⟩ => ⟨S1000x91, .i1⟩
  | .hbm, ⟨12, _⟩ => ⟨S1000x91, .f32⟩
  | .hbm, ⟨13, _⟩ => ⟨S91x1000, .f32⟩
  | .hbm, ⟨14, _⟩ => ⟨S24x4, .f32⟩
  | .hbm, ⟨15, _⟩ => ⟨S1024x4, .f32⟩
  | .hbm, ⟨16, _⟩ => ⟨S_, .i32⟩
  | .hbm, ⟨17, _⟩ => ⟨S_, .f32⟩
  | .hbm, ⟨18, _⟩ => ⟨S91x1024, .f32⟩
  | .hbm, ⟨19, _⟩ => ⟨S91x1024, .bf16⟩
  | .hbm, ⟨20, _⟩ => ⟨S4x1024, .f32⟩
  | .hbm, ⟨21, _⟩ => ⟨S1024x1, .f32⟩
  | .hbm, ⟨22, _⟩ => ⟨S1024, .f32⟩
  | .hbm, ⟨23, _⟩ => ⟨S1024x1, .f32⟩
  | .hbm, ⟨24, _⟩ => ⟨S1024, .f32⟩
  | .hbm, ⟨25, _⟩ => ⟨S1024x1, .f32⟩
  | .hbm, ⟨26, _⟩ => ⟨S1024, .f32⟩
  | .hbm, ⟨27, _⟩ => ⟨S1024x1, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024x1, .f32⟩
  | .hbm, ⟨46, _⟩ => ⟨S1024x1, .f32⟩
  | .hbm, ⟨47, _⟩ => ⟨S1024x1, .f32⟩
  | .hbm, ⟨48, _⟩ => ⟨S1024x1, .f32⟩
  | .hbm, ⟨49, _⟩ => ⟨S1024x4, .f32⟩
  | .hbm, ⟨50, _⟩ => ⟨S4x1024, .f32⟩
  | .hbm, ⟨51, _⟩ => ⟨S1024x1, .f32⟩
  | .hbm, ⟨52, _⟩ => ⟨S1024, .f32⟩
  | .hbm, ⟨53, _⟩ => ⟨S1024x1, .f32⟩
  | .hbm, ⟨54, _⟩ => ⟨S1024, .f32⟩
  | .hbm, ⟨55, _⟩ => ⟨S1024, .f32⟩
  | .hbm, ⟨56, _⟩ => ⟨S1024x1, .f32⟩
  | .hbm, ⟨57, _⟩ => ⟨S1024, .f32⟩
  | .hbm, ⟨58, _⟩ => ⟨S1024x1, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S1x1024, .f32⟩
  | .hbm, ⟨63, _⟩ => ⟨S14400x1024, .f32⟩
  | .hbm, ⟨64, _⟩ => ⟨S14400x1000, .f32⟩
  | .hbm, ⟨65, _⟩ => ⟨S16x900x1000, .f32⟩
  | .local _ .vmem, ⟨0, _⟩ => ⟨S1440x91, .f32⟩
  | .local _ .vmem, ⟨1, _⟩ => ⟨S1440x91, .f32⟩
  | .local _ .vmem, ⟨2, _⟩ => ⟨S1440x4, .f32⟩
  | .local _ .vmem, ⟨3, _⟩ => ⟨S1440x4, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S91x1024, .bf16⟩
  | .local _ .vmem, ⟨8, _⟩ => ⟨S1440x1024, .f32⟩
  | .local _ .vmem, ⟨9, _⟩ => ⟨S1440x1024, .f32⟩
  | _, _ => ⟨S16x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1440x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1440x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S91x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1440x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x900x91_S14400x91 : S16x900x91.ShapeCasts S14400x91
  shapeCasts_S16x900x4_S14400x4 : S16x900x4.ShapeCasts S14400x4
  bcast_S1000_S1000x1_0 : S1000.BroadcastsInDim S1000x1 (![0] : Fin 1 → Fin S1000x1.rank)
  bcast_S1000x1_S1000x91_0_1 : S1000x1.BroadcastsInDim S1000x91 (![0, 1] : Fin 2 → Fin S1000x91.rank)
  bcast_S1x91_S1000x91_0_1 : S1x91.BroadcastsInDim S1000x91 (![0, 1] : Fin 2 → Fin S1000x91.rank)
  transposes_S1000x91_S91x1000_1_0 : S1000x91.Transposes [1, 0] S91x1000
  bcast_S4_S24x4_1 : S4.BroadcastsInDim S24x4 (![1] : Fin 1 → Fin S24x4.rank)
  concatenates_S1000x4_S24x4_S1024x4_d0 : Shape.Concatenates [S1000x4, S24x4] S1024x4 0
  pads_S91x1000_S91x1024_000_0240 : S91x1000.Pads (![0, 0] : Fin 2 → Nat) ![0, 24] ![0, 0] S91x1024
  h_S_ : 0 < S_.numel
  bitsLt_bf16_f32 : FTy.bits .bf16 < FTy.bits .f32
  transposes_S1024x4_S4x1024_1_0 : S1024x4.Transposes [1, 0] S4x1024
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x1_S1024x1_S1024x4_d1 : Shape.Concatenates [S1024x1, S1024x1, S1024x1, S1024x1] S1024x4 1
  shapeCasts_S1024_S1x1024 : S1024.ShapeCasts S1x1024
  inb_S1440x91_S1440x91_0_0 : ∀ a, (![0, 0] : Fin 2 → Nat) a + S1440x91.size a ≤ S1440x91.size a
  h_S1440x91 : 0 < S1440x91.numel
  shapeCasts_S1440x91_S1440x91 : S1440x91.ShapeCasts S1440x91
  inb_S91x1024_S91x1024_0_0 : ∀ a, (![0, 0] : Fin 2 → Nat) a + S91x1024.size a ≤ S91x1024.size a
  h_S91x1024 : 0 < S91x1024.numel
  shapeCasts_S91x1024_S91x1024 : S91x1024.ShapeCasts S91x1024
  inb_S1440x4_S1440x4_0_0 : ∀ a, (![0, 0] : Fin 2 → Nat) a + S1440x4.size a ≤ S1440x4.size a
  h_S1440x4 : 0 < S1440x4.numel
  shapeCasts_S1440x4_S1440x4 : S1440x4.ShapeCasts S1440x4
  slices_S1440x4_o0_0_S1440x1 : S1440x4.Slices ![0, 0] S1440x1
  slices_S1440x4_o0_1_S1440x1 : S1440x4.Slices ![0, 1] S1440x1
  slices_S1440x4_o0_2_S1440x1 : S1440x4.Slices ![0, 2] S1440x1
  slices_S1440x4_o0_3_S1440x1 : S1440x4.Slices ![0, 3] S1440x1
  inb_S4x1024_S1x1024_0_0 : ∀ a, (![0, 0] : Fin 2 → Nat) a + S1x1024.size a ≤ S4x1024.size a
  h_S1x1024 : 0 < S1x1024.numel
  shapeCasts_S1x1024_S1x1024 : S1x1024.ShapeCasts S1x1024
  inb_S4x1024_S1x1024_1_0 : ∀ a, (![1, 0] : Fin 2 → Nat) a + S1x1024.size a ≤ S4x1024.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  broadcasts_S1440x1_S1440x1024 : S1440x1.Broadcasts S1440x1024
  broadcasts_S1x1024_S1440x1024 : S1x1024.Broadcasts S1440x1024
  inb_S1x1024_S1x1024_0_0 : ∀ a, (![0, 0] : Fin 2 → Nat) a + S1x1024.size a ≤ S1x1024.size a
  inb_S1440x1024_S1440x1024_0_0 : ∀ a, (![0, 0] : Fin 2 → Nat) a + S1440x1024.size a ≤ S1440x1024.size a
  h_S1440x1024 : 0 < S1440x1024.numel
  slices_S14400x1024_S14400x1000_0_0 : S14400x1024.Slices ![0, 0] S14400x1000
  shapeCasts_S14400x1000_S16x900x1000 : S14400x1000.ShapeCasts S16x900x1000
  dot_S1440x91_S91x1024_S1440x1024_1_0_0_1_n_n_wf : DotDims.WF S1440x91 S91x1024 S1440x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1440x91.size a ≤ S14400x91.size a
  hwx0_0 : ∀ i : grid0.Coords, EltTy.bits .f32 = 32 ∨ (Rect.block (s := S14400x91) S1440x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1440x4.size a ≤ S14400x4.size a
  hwx0_1 : ∀ i : grid0.Coords, EltTy.bits .f32 = 32 ∨ (Rect.block (s := S14400x4) S1440x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x1024.size a
  hwx0_2 : ∀ i : grid0.Coords, EltTy.bits .f32 = 32 ∨ (Rect.block (s := S4x1024) S4x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x1024.size a
  hwx0_3 : ∀ i : grid0.Coords, EltTy.bits .f32 = 32 ∨ (Rect.block (s := S4x1024) S4x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S91x1024.size a ≤ S91x1024.size a
  hwx0_5 : ∀ i : grid0.Coords, EltTy.bits .bf16 = 32 ∨ (Rect.block (s := S91x1024) S91x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1440x1024.size a ≤ S14400x1024.size a
  hwx0_6 : ∀ i : grid0.Coords, EltTy.bits .f32 = 32 ∨ (Rect.block (s := S14400x1024) S1440x1024.size (cc0_transform_6 i) (hinb0_6 i)).WholeWords (EltTy.packing .f32)

variable [Facts₀]

def dot_S1440x91_S91x1024_S1440x1024_1_0_0_1_n_n : DotDims S1440x91 S91x1024 S1440x1024 where
  lhsContracting := [1]
  rhsContracting := [0]
  lhsNonContracting := [0]
  rhsNonContracting := [1]
  lhsBatch := []
  rhsBatch := []
  wf := dot_S1440x91_S91x1024_S1440x1024_1_0_0_1_n_n_wf

abbrev win0_0 : Pipeline.Window sig grid0 :=
  Pipeline.Window.ofSpec (Memref.whole main_v0) S1440x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1440x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S4x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S91x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v47) S1440x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x900x91 : Shape := ⟨3, ![16, 900, 91]⟩
abbrev S16x900x4 : Shape := ⟨3, ![16, 900, 4]⟩
abbrev S1000x4 : Shape := ⟨2, ![1000, 4]⟩
abbrev S1000 : Shape := ⟨1, ![1000]⟩
abbrev S14400x91 : Shape := ⟨2, ![14400, 91]⟩
abbrev S_ : Shape := ⟨0, ![]⟩
abbrev S14400x4 : Shape := ⟨2, ![14400, 4]⟩
abbrev S1000x1 : Shape := ⟨2, ![1000, 1]⟩
abbrev S14400x1000 : Shape := ⟨2, ![14400, 1000]⟩
abbrev S14400x1x4 : Shape := ⟨3, ![14400, 1, 4]⟩
abbrev S1x1000x4 : Shape := ⟨3, ![1, 1000, 4]⟩
abbrev S14400x1000x4 : Shape := ⟨3, ![14400, 1000, 4]⟩
abbrev S14400x1 : Shape := ⟨2, ![14400, 1]⟩
abbrev S14400 : Shape := ⟨1, ![14400]⟩
abbrev S14400x2 : Shape := ⟨2, ![14400, 2]⟩
abbrev S14400x1x2 : Shape := ⟨3, ![14400, 1, 2]⟩
abbrev S1000x2 : Shape := ⟨2, ![1000, 2]⟩
abbrev S1x1000x2 : Shape := ⟨3, ![1, 1000, 2]⟩
abbrev S14400x1000x2 : Shape := ⟨3, ![14400, 1000, 2]⟩
abbrev S14400x1000x1 : Shape := ⟨3, ![14400, 1000, 1]⟩
abbrev S1x1000 : Shape := ⟨2, ![1, 1000]⟩
abbrev S16x900x1000 : Shape := ⟨3, ![16, 900, 1000]⟩

abbrev nBuf : Space → Nat
  | .hbm => 213
  | .vmem => 0
  | .smem => 0
  | _ => 0

abbrev hbmTy0_0 (i : Nat) : BufTy := match i % 128 with
  | 0 => ⟨S16x900x91, .f32⟩
  | 1 => ⟨S16x900x4, .f32⟩
  | 2 => ⟨S1000x4, .f32⟩
  | 3 => ⟨S1000, .i32⟩
  | 4 => ⟨S14400x91, .f32⟩
  | 5 => ⟨S14400x91, .f32⟩
  | 6 => ⟨S14400x91, .f32⟩
  | 7 => ⟨S_, .f32⟩
  | 8 => ⟨S14400x91, .f32⟩
  | 9 => ⟨S14400x91, .f32⟩
  | 10 => ⟨S_, .f32⟩
  | 11 => ⟨S14400x91, .f32⟩
  | 12 => ⟨S14400x91, .f32⟩
  | 13 => ⟨S14400x4, .f32⟩
  | 14 => ⟨S_, .f32⟩
  | 15 => ⟨S14400x91, .f32⟩
  | 16 => ⟨S14400x91, .f32⟩
  | 17 => ⟨S_, .f32⟩
  | 18 => ⟨S14400x91, .f32⟩
  | 19 => ⟨S14400x91, .f32⟩
  | 20 => ⟨S_, .f32⟩
  | 21 => ⟨S14400x91, .f32⟩
  | 22 => ⟨S14400x91, .f32⟩
  | 23 => ⟨S_, .f32⟩
  | 24 => ⟨S14400x91, .f32⟩
  | 25 => ⟨S14400x91, .f32⟩
  | 26 => ⟨S14400x91, .f32⟩
  | 27 => ⟨S14400x91, .f32⟩
  | 28 => ⟨S14400x91, .f32⟩
  | 29 => ⟨S_, .f32⟩
  | 30 => ⟨S14400x91, .f32⟩
  | 31 => ⟨S14400x91, .f32⟩
  | 32 => ⟨S_, .f32⟩
  | 33 => ⟨S14400x91, .f32⟩
  | 34 => ⟨S14400x91, .f32⟩
  | 35 => ⟨S_, .f32⟩
  | 36 => ⟨S14400x91, .f32⟩
  | 37 => ⟨S14400x91, .f32⟩
  | 38 => ⟨S_, .f32⟩
  | 39 => ⟨S14400x91, .f32⟩
  | 40 => ⟨S14400x91, .f32⟩
  | 41 => ⟨S14400x91, .f32⟩
  | 42 => ⟨S14400x91, .f32⟩
  | 43 => ⟨S14400x91, .f32⟩
  | 44 => ⟨S14400x91, .f32⟩
  | 45 => ⟨S_, .i32⟩
  | 46 => ⟨S1000, .i32⟩
  | 47 => ⟨S1000, .i1⟩
  | 48 => ⟨S_, .i32⟩
  | 49 => ⟨S1000, .i32⟩
  | 50 => ⟨S1000, .i32⟩
  | 51 => ⟨S1000, .i32⟩
  | 52 => ⟨S1000x1, .i32⟩
  | 53 => ⟨S14400x1000, .f32⟩
  | 54 => ⟨S14400x1x4, .f32⟩
  | 55 => ⟨S1x1000x4, .f32⟩
  | 56 => ⟨S14400x1000x4, .f32⟩
  | 57 => ⟨S14400x1000x4, .f32⟩
  | 58 => ⟨S14400x1000x4, .f32⟩
  | 59 => ⟨S14400x1000x4, .f32⟩
  | 60 => ⟨S_, .f32⟩
  | 61 => ⟨S14400x1000, .f32⟩
  | 62 => ⟨S14400x1, .f32⟩
  | 63 => ⟨S14400, .f32⟩
  | 64 => ⟨S14400x1, .f32⟩
  | 65 => ⟨S14400, .f32⟩
  | 66 => ⟨S14400x1, .f32⟩
  | 67 => ⟨S14400, .f32⟩
  | 68 => ⟨S14400x1, .f32⟩
  | 69 => ⟨S14400, .f32⟩
  | 70 => ⟨S_, .f32⟩
  | 71 => ⟨S14400, .f32⟩
  | 72 => ⟨S14400, .f32⟩
  | 73 => ⟨S14400, .f32⟩
  | 74 => ⟨S_, .f32⟩
  | 75 => ⟨S14400, .f32⟩
  | 76 => ⟨S14400, .f32⟩
  | 77 => ⟨S14400, .f32⟩
  | 78 => ⟨S_, .f32⟩
  | 79 => ⟨S14400, .f32⟩
  | 80 => ⟨S14400, .f32⟩
  | 81 => ⟨S14400, .f32⟩
  | 82 => ⟨S_, .f32⟩
  | 83 => ⟨S14400, .f32⟩
  | 84 => ⟨S14400, .f32⟩
  | 85 => ⟨S14400, .f32⟩
  | 86 => ⟨S14400x1, .f32⟩
  | 87 => ⟨S14400x1, .f32⟩
  | 88 => ⟨S14400x1, .f32⟩
  | 89 => ⟨S14400x1, .f32⟩
  | 90 => ⟨S14400x4, .f32⟩
  | 91 => ⟨S1000x1, .f32⟩
  | 92 => ⟨S1000, .f32⟩
  | 93 => ⟨S1000x1, .f32⟩
  | 94 => ⟨S1000, .f32⟩
  | 95 => ⟨S1000x1, .f32⟩
  | 96 => ⟨S1000, .f32⟩
  | 97 => ⟨S1000x1, .f32⟩
  | 98 => ⟨S1000, .f32⟩
  | 99 => ⟨S_, .f32⟩
  | 100 => ⟨S1000, .f32⟩
  | 101 => ⟨S1000, .f32⟩
  | 102 => ⟨S1000, .f32⟩
  | 103 => ⟨S_, .f32⟩
  | 104 => ⟨S1000, .f32⟩
  | 105 => ⟨S1000, .f32⟩
  | 106 => ⟨S1000, .f32⟩
  | 107 => ⟨S_, .f32⟩
  | 108 => ⟨S1000, .f32⟩
  | 109 => ⟨S1000, .f32⟩
  | 110 => ⟨S1000, .f32⟩
  | 111 => ⟨S_, .f32⟩
  | 112 => ⟨S1000, .f32⟩
  | 113 => ⟨S1000, .f32⟩
  | 114 => ⟨S1000, .f32⟩
  | 115 => ⟨S1000x1, .f32⟩
  | 116 => ⟨S1000x1, .f32⟩
  | 117 => ⟨S1000x1, .f32⟩
  | 118 => ⟨S1000x1, .f32⟩
  | 119 => ⟨S1000x4, .f32⟩
  | 120 => ⟨S14400x1, .f32⟩
  | 121 => ⟨S14400, .f32⟩
  | 122 => ⟨S14400x1, .f32⟩
  | 123 => ⟨S14400, .f32⟩
  | 124 => ⟨S14400, .f32⟩
  | 125 => ⟨S14400x1, .f32⟩
  | 126 => ⟨S14400, .f32⟩
  | 127 => ⟨S14400x1, .f32⟩
  | _ => ⟨S16x900x91, .f32⟩

abbrev hbmTy0_1 (i : Nat) : BufTy := match i % 128 with
  | 0 => ⟨S14400, .f32⟩
  | 1 => ⟨S14400, .f32⟩
  | 2 => ⟨S14400, .f32⟩
  | 3 => ⟨S1000x1, .f32⟩
  | 4 => ⟨S1000, .f32⟩
  | 5 => ⟨S1000x1, .f32⟩
  | 6 => ⟨S1000, .f32⟩
  | 7 => ⟨S1000, .f32⟩
  | 8 => ⟨S1000x1, .f32⟩
  | 9 => ⟨S1000, .f32⟩
  | 10 => ⟨S1000x1, .f32⟩
  | 11 => ⟨S1000, .f32⟩
  | 12 => ⟨S1000, .f32⟩
  | 13 => ⟨S1000, .f32⟩
  | 14 => ⟨S14400x2, .f32⟩
  | 15 => ⟨S14400x1x2, .f32⟩
  | 16 => ⟨S1000x2, .f32⟩
  | 17 => ⟨S1x1000x2, .f32⟩
  | 18 => ⟨S14400x1000x2, .f32⟩
  | 19 => ⟨S14400x1000x2, .f32⟩
  | 20 => ⟨S14400x1000x2, .f32⟩
  | 21 => ⟨S14400x2, .f32⟩
  | 22 => ⟨S14400x1x2, .f32⟩
  | 23 => ⟨S1000x2, .f32⟩
  | 24 => ⟨S1x1000x2, .f32⟩
  | 25 => ⟨S14400x1000x2, .f32⟩
  | 26 => ⟨S14400x1000x2, .f32⟩
  | 27 => ⟨S14400x1000x2, .f32⟩
  | 28 => ⟨S14400x1000x2, .f32⟩
  | 29 => ⟨S_, .f32⟩
  | 30 => ⟨S_, .f32⟩
  | 31 => ⟨S14400x1000x2, .f32⟩
  | 32 => ⟨S14400x1000x2, .f32⟩
  | 33 => ⟨S14400x1000x1, .f32⟩
  | 34 => ⟨S14400x1000, .f32⟩
  | 35 => ⟨S14400x1000x1, .f32⟩
  | 36 => ⟨S14400x1000, .f32⟩
  | 37 => ⟨S14400x1000, .f32⟩
  | 38 => ⟨S14400x1, .f32⟩
  | 39 => ⟨S1x1000, .f32⟩
  | 40 => ⟨S14400x1000, .f32⟩
  | 41 => ⟨S14400x1000, .f32⟩
  | 42 => ⟨S14400x1000, .f32⟩
  | 43 => ⟨S14400x1000, .f32⟩
  | 44 => ⟨S14400x1000, .f32⟩
  | 45 => ⟨S14400x2, .f32⟩
  | 46 => ⟨S14400x1x2, .f32⟩
  | 47 => ⟨S1000x2, .f32⟩
  | 48 => ⟨S1x1000x2, .f32⟩
  | 49 => ⟨S14400x1000x2, .f32⟩
  | 50 => ⟨S14400x1000x2, .f32⟩
  | 51 => ⟨S14400x1000x2, .f32⟩
  | 52 => ⟨S14400x2, .f32⟩
  | 53 => ⟨S14400x1x2, .f32⟩
  | 54 => ⟨S1000x2, .f32⟩
  | 55 => ⟨S1x1000x2, .f32⟩
  | 56 => ⟨S14400x1000x2, .f32⟩
  | 57 => ⟨S14400x1000x2, .f32⟩
  | 58 => ⟨S14400x1000x2, .f32⟩
  | 59 => ⟨S14400x1000x2, .f32⟩
  | 60 => ⟨S_, .f32⟩
  | 61 => ⟨S_, .f32⟩
  | 62 => ⟨S14400x1000x2, .f32⟩
  | 63 => ⟨S14400x1000x2, .f32⟩
  | 64 => ⟨S14400x1000x1, .f32⟩
  | 65 => ⟨S14400x1000, .f32⟩
  | 66 => ⟨S14400x1000x1, .f32⟩
  | 67 => ⟨S14400x1000, .f32⟩
  | 68 => ⟨S14400x1000, .f32⟩
  | 69 => ⟨S14400x1000, .f32⟩
  | 70 => ⟨S14400x1000, .f32⟩
  | 71 => ⟨S14400x1000, .f32⟩
  | 72 => ⟨S14400x1000, .f32⟩
  | 73 => ⟨S_, .f32⟩
  | 74 => ⟨S14400x1000, .f32⟩
  | 75 => ⟨S14400x1000, .f32⟩
  | 76 => ⟨S_, .f32⟩
  | 77 => ⟨S14400x1000, .f32⟩
  | 78 => ⟨S14400x1000, .f32⟩
  | 79 => ⟨S14400x1000, .f32⟩
  | 80 => ⟨S_, .f32⟩
  | 81 => ⟨S14400x1000, .f32⟩
  | 82 => ⟨S14400x1000, .f32⟩
  | 83 => ⟨S14400x1000, .f32⟩
  | 84 => ⟨S16x900x1000, .f32⟩
  | _ => ⟨S16x900x91, .f32⟩

abbrev hbmTy (i : Nat) : BufTy := match i / 128 with
  | 0 => hbmTy0_0 i
  | 1 => hbmTy0_1 i
  | _ => ⟨S16x900x91, .f32⟩

abbrev bufTy : (tb : Table) → Fin (tcTables nBuf tb) → BufTy
  | .hbm, ⟨i, _⟩ => hbmTy i
  | _, _ => ⟨S16x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_15 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_16 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_17 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_18 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_cst_19 : Ref sig .tc := ⟨.hbm, 157, rfl⟩
abbrev main_call0_v0 : Ref sig .tc := ⟨.hbm, 158, rfl⟩
abbrev main_call0_v1 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_cst_20 : Ref sig .tc := ⟨.hbm, 188, rfl⟩
abbrev main_call1_v0 : Ref sig .tc := ⟨.hbm, 189, rfl⟩
abbrev main_call1_v1 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_cst_21 : Ref sig .tc := ⟨.hbm, 201, rfl⟩
abbrev main_v170 : Ref sig .tc := ⟨.hbm, 202, rfl⟩
abbrev main_v171 : Ref sig .tc := ⟨.hbm, 203, rfl⟩
abbrev main_cst_22 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_cst_23 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩

abbrev nD : Nat := 1
abbrev τ : Topo := Topo.v7x

variable {F : FTy → Type} [FloatOps F]

class Facts₀ : Prop where
  shapeCasts_S16x900x91_S14400x91 : S16x900x91.ShapeCasts S14400x91
  bcast_S_S14400x91 : S_.BroadcastsInDim S14400x91 (![] : Fin 0 → Fin S14400x91.rank)
  shapeCasts_S16x900x4_S14400x4 : S16x900x4.ShapeCasts S14400x4
  bcast_S_S1000 : S_.BroadcastsInDim S1000 (![] : Fin 0 → Fin S1000.rank)
  bcast_S1000_S1000x1_0 : S1000.BroadcastsInDim S1000x1 (![0] : Fin 1 → Fin S1000x1.rank)
  bcast_S14400x4_S14400x1x4_0_2 : S14400x4.BroadcastsInDim S14400x1x4 (![0, 2] : Fin 2 → Fin S14400x1x4.rank)
  bcast_S1000x4_S1x1000x4_1_2 : S1000x4.BroadcastsInDim S1x1000x4 (![1, 2] : Fin 2 → Fin S1x1000x4.rank)
  bcast_S14400x1x4_S14400x1000x4_0_1_2 : S14400x1x4.BroadcastsInDim S14400x1000x4 (![0, 1, 2] : Fin 3 → Fin S14400x1000x4.rank)
  bcast_S1x1000x4_S14400x1000x4_0_1_2 : S1x1000x4.BroadcastsInDim S14400x1000x4 (![0, 1, 2] : Fin 3 → Fin S14400x1000x4.rank)
  reducesTo_S14400x1000x4_S14400x1000_d2 : S14400x1000x4.ReducesTo [2] S14400x1000
  h_S_ : 0 < S_.numel
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  bcast_S14400_S14400x1_0 : S14400.BroadcastsInDim S14400x1 (![0] : Fin 1 → Fin S14400x1.rank)
  concatenates_S14400x1_S14400x1_S14400x1_S14400x1_S14400x4_d1 : Shape.Concatenates [S14400x1, S14400x1, S14400x1, S14400x1] S14400x4 1
  slices_S1000x4_S1000x1_0_0 : S1000x4.Slices ![0, 0] S1000x1
  shapeCasts_S1000x1_S1000 : S1000x1.ShapeCasts S1000
  slices_S1000x4_S1000x1_0_1 : S1000x4.Slices ![0, 1] S1000x1
  slices_S1000x4_S1000x1_0_2 : S1000x4.Slices ![0, 2] S1000x1
  slices_S1000x4_S1000x1_0_3 : S1000x4.Slices ![0, 3] S1000x1
  concatenates_S1000x1_S1000x1_S1000x1_S1000x1_S1000x4_d1 : Shape.Concatenates [S1000x1, S1000x1, S1000x1, S1000x1] S1000x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1000x4_S1000x2_0_0 : S1000x4.Slices ![0, 0] S1000x2
  bcast_S1000x2_S1x1000x2_1_2 : S1000x2.BroadcastsInDim S1x1000x2 (![1, 2] : Fin 2 → Fin S1x1000x2.rank)
  bcast_S14400x1x2_S14400x1000x2_0_1_2 : S14400x1x2.BroadcastsInDim S14400x1000x2 (![0, 1, 2] : Fin 3 → Fin S14400x1000x2.rank)
  bcast_S1x1000x2_S14400x1000x2_0_1_2 : S1x1000x2.BroadcastsInDim S14400x1000x2 (![0, 1, 2] : Fin 3 → Fin S14400x1000x2.rank)
  slices_S14400x4_S14400x2_0_2 : S14400x4.Slices ![0, 2] S14400x2
  slices_S1000x4_S1000x2_0_2 : S1000x4.Slices ![0, 2] S1000x2
  bcast_S_S14400x1000x2 : S_.BroadcastsInDim S14400x1000x2 (![] : Fin 0 → Fin S14400x1000x2.rank)
  slices_S14400x1000x2_S14400x1000x1_0_0_0 : S14400x1000x2.Slices ![0, 0, 0] S14400x1000x1
  shapeCasts_S14400x1000x1_S14400x1000 : S14400x1000x1.ShapeCasts S14400x1000
  slices_S14400x1000x2_S14400x1000x1_0_0_1 : S14400x1000x2.Slices ![0, 0, 1] S14400x1000x1
  bcast_S1000_S1x1000_1 : S1000.BroadcastsInDim S1x1000 (![1] : Fin 1 → Fin S1x1000.rank)
  bcast_S14400x1_S14400x1000_0_1 : S14400x1.BroadcastsInDim S14400x1000 (![0, 1] : Fin 2 → Fin S14400x1000.rank)
  bcast_S1x1000_S14400x1000_0_1 : S1x1000.BroadcastsInDim S14400x1000 (![0, 1] : Fin 2 → Fin S14400x1000.rank)
  bcast_S_S14400x1000 : S_.BroadcastsInDim S14400x1000 (![] : Fin 0 → Fin S14400x1000.rank)
  shapeCasts_S14400x1000_S16x900x1000 : S14400x1000.ShapeCasts S16x900x1000
  gather_S14400x91_S1000x1_S14400x1000_0_1_n_n_1_1_144001_wf : GatherDims.WF S14400x91 S1000x1 S14400x1000 [0] [1] [] [1] [] 1 ![14400, 1]

variable [Facts₀]

def gather_S14400x91_S1000x1_S14400x1000_0_1_n_n_1_1_144001 : GatherDims S14400x91 S1000x1 S14400x1000 where
  offsetDims := [0]
  collapsedSliceDims := [1]
  operandBatchingDims := []
  startIndicesBatchingDims := []
  startIndexMap := [1]
  indexVectorDim := 1
  sliceSizes := ![14400, 1]
  wf := gather_S14400x91_S1000x1_S14400x1000_0_1_n_n_1_1_144001_wf

class Facts : Prop extends Facts₀ where

variable [Facts]
-- ==== Proof.KBase.lean ====
/- What the region finds and what its body computes.
   The TensorCore buffers as the region finds them are the launch memory after the host lines before the region
   (the reshapes of the predictions, the one-hot table of the labels, the padded ground-truth boxes in both
   coordinate systems and their areas). A window's block at a grid point is read off those. The kernel body is
   one pure function of its six input blocks: the focal classification cost contracted against the one-hot
   table, the L1 box distance and the generalized IoU, combined with their weights. -/
import proofs.«412066_j62371515072731_3_alg».proof.Proof.Gen.Kernel.Launch
import proofs.«412066_j62371515072731_3_alg».proof.Proof.Gen.Kernel.Skeleton
import proofs.«412066_j62371515072731_3_alg».proof.Proof.Gen.Kernel.Points
import Idealize.ShloMosaic.Lib.Pipeline.FrameBody
import Idealize.ShloMosaic.Lib.Pipeline.FrameSuffix

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

/-! ## The buffers as the region finds them -/

section Entry
variable (m : (ℓ : Loc nD τ sig) → Buf (Elt F) ℓ)

/-- Core `c`'s TensorCore buffers when the region is entered: the launch memory after the five stretches of host
    lines before it. -/
abbrev V0 (c : Dev nD) : Valuation τ sig (Elt F) :=
  StableHlo.after (List.flatten [hostOps0, hostOps0_1, hostOps0_2, hostOps0_3, hostOps0_4]) (fun b => m (c, b))

/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Entry

/-! ## The rectangles the body reads and writes -/

/-- The whole block of logits. -/
abbrev rLogits : Rect S1440x91 := Rect.unit (s := S1440x91) ![0, 0] S1440x91.size Facts₀.inb_S1440x91_S1440x91_0_0
/-- The whole block of predicted boxes. -/
abbrev rBox : Rect S1440x4 := Rect.unit (s := S1440x4) ![0, 0] S1440x4.size Facts₀.inb_S1440x4_S1440x4_0_0
/-- Row `k` of a 4-row table of ground-truth coordinates. -/
abbrev rRow0 : Rect S4x1024 := Rect.unit (s := S4x1024) ![0, 0] S1x1024.size Facts₀.inb_S4x1024_S1x1024_0_0
abbrev rRow1 : Rect S4x1024 := Rect.unit (s := S4x1024) ![1, 0] S1x1024.size Facts₀.inb_S4x1024_S1x1024_1_0
abbrev rRow2 : Rect S4x1024 := Rect.unit (s := S4x1024) ![2, 0] S1x1024.size Facts₀.inb_S4x1024_S1x1024_2_0
abbrev rRow3 : Rect S4x1024 := Rect.unit (s := S4x1024) ![3, 0] S1x1024.size Facts₀.inb_S4x1024_S1x1024_3_0
/-- The row of ground-truth areas. -/
abbrev rArea : Rect S1x1024 := Rect.unit (s := S1x1024) ![0, 0] S1x1024.size Facts₀.inb_S1x1024_S1x1024_0_0
/-- The whole one-hot table. -/
abbrev rHot : Rect S91x1024 := Rect.unit (s := S91x1024) ![0, 0] S91x1024.size Facts₀.inb_S91x1024_S91x1024_0_0
/-- The whole output block. -/
abbrev rOut : Rect S1440x1024 := Rect.unit (s := S1440x1024) ![0, 0] S1440x1024.size Facts₀.inb_S1440x1024_S1440x1024_0_0

/-! ## The body as a function of its input blocks -/

/-- The value the body stores, from the six input blocks: `x0` the logits, `x1` the predicted boxes (cx, cy, w, h),
    `x2` the ground-truth boxes as rows cx, cy, w, h, `x3` the same as rows x1, y1, x2, y2, `x4` their areas,
    `x5` the one-hot table of the labels. -/
def bodyVal (x0 : Vec F S1440x91 .f32) (x1 : Vec F S1440x4 .f32) (x2 x3 : Vec F S4x1024 .f32)
    (x4 : Vec F S1x1024 .f32) (x5 : Vec F S91x1024 .bf16) : Vec F S1440x1024 .f32 :=
  let v35 := View.ld x1 rBox
  let v37 := k0_pay4 v35
  let v38 := k0_pay5 v35
  let v39 := k0_pay6 v35
  let v40 := k0_pay7 v35
  let v73 := k0_pay9 v37 v39
  let v76 := k0_pay10 v38 v40
  let v79 := k0_pay11 v37 v39
  let v82 := k0_pay12 v38 v40
  let v85 := k0_pay13 v37 v38 v39 v40
  let v87 := k0_pay14 (View.ld x3 rRow0)
  let v88 := View.ld x3 rRow1
  let v90 := View.ld x3 rRow2
  let v92 := View.ld x3 rRow3
  let v94 := View.ld x4 rArea
  k0_pay1
    (k0_pay8 (k0_pay2 (View.ld x0 rLogits) (View.ld x5 rHot)) v37 v38 v39 v40
      (View.ld x2 rRow0) (View.ld x2 rRow1) (View.ld x2 rRow2) (View.ld x2 rRow3))
    (k0_pay19 v73 v76 v79 v82 v85 v87 v88 v90 v92 v94)
    (k0_pay20 v73 v76 v79 v82 v85 v87 v88 v90 v92 v94)
    (k0_pay21 v73 v79 v87 v90)
    (k0_pay22 v76 v82 v88 v92)
    (Scalar.ofBits .f32 0x00000000#32)

/-- The output window's staging buffer after the body: its one store, which covers the block. -/
def out0_6 (x0 : Vec F S1440x91 .f32) (x1 : Vec F S1440x4 .f32) (x2 x3 : Vec F S4x1024 .f32)
    (x4 : Vec F S1x1024 .f32) (x5 : Vec F S91x1024 .bf16) : Vec F S1440x1024 .f32 :=
  View.canon [⟨rOut, bodyVal x0 x1 x2 x3 x4 x5⟩]

/-- The one store covers the output block. -/
theorem cover0_6 (p0 : Vec F S1440x1024 .f32) (y : S1440x1024.Idx) :
    ∃ pc ∈ ([⟨rOut, p0⟩] : List (View.Piece (Elt F) S1440x1024 .f32)), y ∈ pc.1.set :=
  View.cover_of_tiled [⟨rOut, p0⟩] S1440x1024.size (by rfl) y

end Cert.Kernel.Hand

end
-- ==== Proof.KFrame.lean ====
/- The frame of the program: its run and what the run leaves.
   @main is five stretches of host lines, one grid region of ten points, and two more host lines. The region finds
   each TensorCore buffer as the host lines before it left it; none of them writes an argument, so the arguments are
   as launched there. At every grid point the body finds each of its six input windows at that window's block of its
   array — fetched at that point or kept from the first point, the four ground-truth tables having one block for the
   whole grid —, loads them whole (the two coordinate tables row by row), computes, and overwrites the output
   window's buffer with one store covering it: the body leaves the inputs as found and the output at a function of
   the six input blocks alone. The region writes back the output blocks into its own result array and nothing else,
   the two lines after it write their own result buffers, and so every argument ends as launched. -/
import proofs.«412066_j62371515072731_3_alg».proof.Proof.KBase
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: holding the unscoped
    buffers as launched it reduces to the region continued by the later lines, holding them as the earlier lines
    leave them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch unscoped TensorCore buffers only; with nothing prefetched every such buffer is
    an array of the pipeline or bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: the slice and the reshape write their own result buffers, which are
    none of the seven windows' arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## What the body finds in its input windows -/

/-- An input window's current staging buffer holds its block at every point, fetched there or not (unfetched, the
    block index has not moved since the point before), for any proof data whose array is the region-entry contents
    and whose body leaves the block in place: the windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run to the frame claim: no argument is an array of the pipeline, so the run's post gives each at
    what the lines after the region leave, which is what the region found, which is what was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's triple -/

set_option maxHeartbeats 1000000 in
/-- The body on whole staging memrefs, the six inputs' at read contents `x0 … x5` and the output's at anything,
    runs to the continuation holding the inputs' as they were and the output's at `out0_6` of the inputs': its
    loads read the inputs through their rectangles, nothing is kept, and its one store covers the output. -/
theorem sound_kernel (c : Dev nD) (E : Set ℕ) (i : grid0.Coords) (arg1 : Memref sig .tc .vmem S1440x91 .f32) (harg1 : arg1.IsWhole) (arg2 : Memref sig .tc .vmem S1440x4 .f32) (harg2 : arg2.IsWhole) (arg3 : Memref sig .tc .vmem S4x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S91x1024 .bf16) (harg6 : arg6.IsWhole) (arg7 : Memref sig .tc .vmem S1440x1024 .f32) (harg7 : arg7.IsWhole)
    (x0 : Vec F S1440x91 .f32) (x1 : Vec F S1440x4 .f32) (x2 : Vec F S4x1024 .f32) (x3 : Vec F S4x1024 .f32) (x4 : Vec F S1x1024 .f32) (x5 : Vec F S91x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__cost_kernel i arg1 harg1 arg2 harg2 arg3 harg3 arg4 harg4 arg5 harg5 arg6 harg6 arg7 harg7) K := by
  simp only [cc0__cost_kernel_eq_skeleton]; unfold cc0__cost_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the one pipeline on core `c`: the arrays as the region finds them; after the body at point
    `t` each input's buffer at its block and the output's at `out0_6` of the six input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (the definition projected; the fold over the host lines is
    never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has each array of the pipeline at what the proof data compute (an input as found, the output array
    the found contents overwritten block by block) and every other unscoped buffer as the two lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any `F`: @main runs and the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KIBase.lean ====
/- What the region finds and what its body computes.
   The TensorCore buffers as the region finds them are the launch memory after the host lines before the region
   (the reshapes of the predictions, the one-hot table of the labels, the padded ground-truth boxes in both
   coordinate systems and their areas). A window's block at a grid point is read off those. The kernel body is
   one pure function of its six input blocks: the focal classification cost contracted against the one-hot
   table, the L1 box distance and the generalized IoU, combined with their weights. -/
import proofs.«412066_j62371515072731_3_alg».proof.Proof.Gen.KernelIdeal.Launch
import proofs.«412066_j62371515072731_3_alg».proof.Proof.Gen.KernelIdeal.Skeleton
import proofs.«412066_j62371515072731_3_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-! ## The buffers as the region finds them -/

section Entry
variable (m : (ℓ : Loc nD τ sig) → Buf (Elt F) ℓ)

/-- Core `c`'s TensorCore buffers when the region is entered: the launch memory after the five stretches of host
    lines before it. -/
abbrev V0 (c : Dev nD) : Valuation τ sig (Elt F) :=
  StableHlo.after (List.flatten [hostOps0, hostOps0_1, hostOps0_2, hostOps0_3, hostOps0_4]) (fun b => m (c, b))

/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Entry

/-! ## The rectangles the body reads and writes -/

/-- The whole block of logits. -/
abbrev rLogits : Rect S1440x91 := Rect.unit (s := S1440x91) ![0, 0] S1440x91.size Facts₀.inb_S1440x91_S1440x91_0_0
/-- The whole block of predicted boxes. -/
abbrev rBox : Rect S1440x4 := Rect.unit (s := S1440x4) ![0, 0] S1440x4.size Facts₀.inb_S1440x4_S1440x4_0_0
/-- Row `k` of a 4-row table of ground-truth coordinates. -/
abbrev rRow0 : Rect S4x1024 := Rect.unit (s := S4x1024) ![0, 0] S1x1024.size Facts₀.inb_S4x1024_S1x1024_0_0
abbrev rRow1 : Rect S4x1024 := Rect.unit (s := S4x1024) ![1, 0] S1x1024.size Facts₀.inb_S4x1024_S1x1024_1_0
abbrev rRow2 : Rect S4x1024 := Rect.unit (s := S4x1024) ![2, 0] S1x1024.size Facts₀.inb_S4x1024_S1x1024_2_0
abbrev rRow3 : Rect S4x1024 := Rect.unit (s := S4x1024) ![3, 0] S1x1024.size Facts₀.inb_S4x1024_S1x1024_3_0
/-- The row of ground-truth areas. -/
abbrev rArea : Rect S1x1024 := Rect.unit (s := S1x1024) ![0, 0] S1x1024.size Facts₀.inb_S1x1024_S1x1024_0_0
/-- The whole one-hot table. -/
abbrev rHot : Rect S91x1024 := Rect.unit (s := S91x1024) ![0, 0] S91x1024.size Facts₀.inb_S91x1024_S91x1024_0_0
/-- The whole output block. -/
abbrev rOut : Rect S1440x1024 := Rect.unit (s := S1440x1024) ![0, 0] S1440x1024.size Facts₀.inb_S1440x1024_S1440x1024_0_0

/-! ## The body as a function of its input blocks -/

/-- The value the body stores, from the six input blocks: `x0` the logits, `x1` the predicted boxes (cx, cy, w, h),
    `x2` the ground-truth boxes as rows cx, cy, w, h, `x3` the same as rows x1, y1, x2, y2, `x4` their areas,
    `x5` the one-hot table of the labels. -/
def bodyVal (x0 : Vec F S1440x91 .f32) (x1 : Vec F S1440x4 .f32) (x2 x3 : Vec F S4x1024 .f32)
    (x4 : Vec F S1x1024 .f32) (x5 : Vec F S91x1024 .bf16) : Vec F S1440x1024 .f32 :=
  let v35 := View.ld x1 rBox
  let v37 := k0_pay4 v35
  let v38 := k0_pay5 v35
  let v39 := k0_pay6 v35
  let v40 := k0_pay7 v35
  let v73 := k0_pay9 v37 v39
  let v76 := k0_pay10 v38 v40
  let v79 := k0_pay11 v37 v39
  let v82 := k0_pay12 v38 v40
  let v85 := k0_pay13 v37 v38 v39 v40
  let v87 := k0_pay14 (View.ld x3 rRow0)
  let v88 := View.ld x3 rRow1
  let v90 := View.ld x3 rRow2
  let v92 := View.ld x3 rRow3
  let v94 := View.ld x4 rArea
  k0_pay1
    (k0_pay8 (k0_pay2 (View.ld x0 rLogits) (View.ld x5 rHot)) v37 v38 v39 v40
      (View.ld x2 rRow0) (View.ld x2 rRow1) (View.ld x2 rRow2) (View.ld x2 rRow3))
    (k0_pay19 v73 v76 v79 v82 v85 v87 v88 v90 v92 v94)
    (k0_pay20 v73 v76 v79 v82 v85 v87 v88 v90 v92 v94)
    (k0_pay21 v73 v79 v87 v90)
    (k0_pay22 v76 v82 v88 v92)
    (Scalar.ofBits .f32 0x00000000#32)

/-- The output window's staging buffer after the body: its one store, which covers the block. -/
def out0_6 (x0 : Vec F S1440x91 .f32) (x1 : Vec F S1440x4 .f32) (x2 x3 : Vec F S4x1024 .f32)
    (x4 : Vec F S1x1024 .f32) (x5 : Vec F S91x1024 .bf16) : Vec F S1440x1024 .f32 :=
  View.canon [⟨rOut, bodyVal x0 x1 x2 x3 x4 x5⟩]

/-- The one store covers the output block. -/
theorem cover0_6 (p0 : Vec F S1440x1024 .f32) (y : S1440x1024.Idx) :
    ∃ pc ∈ ([⟨rOut, p0⟩] : List (View.Piece (Elt F) S1440x1024 .f32)), y ∈ pc.1.set :=
  View.cover_of_tiled [⟨rOut, p0⟩] S1440x1024.size (by rfl) y

end Cert.KernelIdeal.Hand

end
-- ==== Proof.KIFrame.lean ====
/- The frame of the program: its run and what the run leaves.
   @main is five stretches of host lines, one grid region of ten points, and two more host lines. The region finds
   each TensorCore buffer as the host lines before it left it; none of them writes an argument, so the arguments are
   as launched there. At every grid point the body finds each of its six input windows at that window's block of its
   array — fetched at that point or kept from the first point, the four ground-truth tables having one block for the
   whole grid —, loads them whole (the two coordinate tables row by row), computes, and overwrites the output
   window's buffer with one store covering it: the body leaves the inputs as found and the output at a function of
   the six input blocks alone. The region writes back the output blocks into its own result array and nothing else,
   the two lines after it write their own result buffers, and so every argument ends as launched. -/
import proofs.«412066_j62371515072731_3_alg».proof.Proof.KIBase
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: holding the unscoped
    buffers as launched it reduces to the region continued by the later lines, holding them as the earlier lines
    leave them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch unscoped TensorCore buffers only; with nothing prefetched every such buffer is
    an array of the pipeline or bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: the slice and the reshape write their own result buffers, which are
    none of the seven windows' arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host line after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## What the body finds in its input windows -/

/-- An input window's current staging buffer holds its block at every point, fetched there or not (unfetched, the
    block index has not moved since the point before), for any proof data whose array is the region-entry contents
    and whose body leaves the block in place: the windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run to the frame claim: no argument is an array of the pipeline, so the run's post gives each at
    what the lines after the region leave, which is what the region found, which is what was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's triple -/

set_option maxHeartbeats 1000000 in
/-- The body on whole staging memrefs, the six inputs' at read contents `x0 … x5` and the output's at anything,
    runs to the continuation holding the inputs' as they were and the output's at `out0_6` of the inputs': its
    loads read the inputs through their rectangles, nothing is kept, and its one store covers the output. -/
theorem sound_kernel (c : Dev nD) (E : Set ℕ) (i : grid0.Coords) (arg1 : Memref sig .tc .vmem S1440x91 .f32) (harg1 : arg1.IsWhole) (arg2 : Memref sig .tc .vmem S1440x4 .f32) (harg2 : arg2.IsWhole) (arg3 : Memref sig .tc .vmem S4x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S91x1024 .bf16) (harg6 : arg6.IsWhole) (arg7 : Memref sig .tc .vmem S1440x1024 .f32) (harg7 : arg7.IsWhole)
    (x0 : Vec F S1440x91 .f32) (x1 : Vec F S1440x4 .f32) (x2 : Vec F S4x1024 .f32) (x3 : Vec F S4x1024 .f32) (x4 : Vec F S1x1024 .f32) (x5 : Vec F S91x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__cost_kernel i arg1 harg1 arg2 harg2 arg3 harg3 arg4 harg4 arg5 harg5 arg6 harg6 arg7 harg7) K := by
  simp only [cc0__cost_kernel_eq_skeleton]; unfold cc0__cost_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the one pipeline on core `c`: the arrays as the region finds them; after the body at point
    `t` each input's buffer at its block and the output's at `out0_6` of the six input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (the definition projected; the fold over the host lines is
    never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has each array of the pipeline at what the proof data compute (an input as found, the output array
    the found contents overwritten block by block) and every other unscoped buffer as the two lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any `F`: @main runs and the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/- The matching cost of one predicted box against one ground-truth box, as each program computes it.
   Both are  2 · (focal classification cost at the box's label) + 5 · (L1 distance of the boxes) − 2 · (generalized IoU),
   on extended reals. The kernel contracts the per-class focal cost against a 0/1 column that marks the label
   (and adds the contraction of a residual `d − d`); the reference picks the label's entry. The kernel squares by a
   product, the reference by a power; the kernel's sigmoid is the one operation the reference spells out as
   1 / (1 + e^(−x)). Every literal is kept as the extended real its word denotes. -/
import Idealize.ShloMosaic.PureOps.Ideal
import Mathlib.Algebra.BigOperators.Group.Finset.Basic

noncomputable section

namespace Cert.Spec

open Idealize.ShloMosaic

/-! ## The literals -/

abbrev c0 : EReal := Ideal.ofBits .f32 0x00000000#32
abbrev c1 : EReal := Ideal.ofBits .f32 0x3F800000#32
abbrev c2 : EReal := Ideal.ofBits .f32 0x40000000#32
abbrev c5 : EReal := Ideal.ofBits .f32 0x40A00000#32
abbrev chalf : EReal := Ideal.ofBits .f32 0x3F000000#32
abbrev c025 : EReal := Ideal.ofBits .f32 0x3E800000#32
abbrev c075 : EReal := Ideal.ofBits .f32 0x3F400000#32
abbrev ceps : EReal := Ideal.ofBits .f32 0x322BCC77#32

/-! ## The focal classification cost of one logit -/

/-- As the kernel computes it: `p = σ(x)`, `q = 1 − p`,
    `¼ q² (0 − log (p + ε)) − ¾ p² (0 − log (q + ε))`, the squares as products. -/
def focalK (x : EReal) : EReal :=
  (c025 * ((c1 - Ideal.logistic x) * (c1 - Ideal.logistic x))) * (c0 - Ideal.log (Ideal.logistic x + ceps))
    - (c075 * (Ideal.logistic x * Ideal.logistic x)) * (c0 - Ideal.log ((c1 - Ideal.logistic x) + ceps))

/-- The reference's sigmoid: `1 / (1 + e^(−x))`. -/
def sigR (x : EReal) : EReal := Ideal.div c1 (c1 + Ideal.exp (-x))

/-- As the reference computes it: `¼ (1 − p)^2 (−log (p + ε)) − ¾ p^2 (−log ((1 − p) + ε))`, the squares as powers. -/
def focalR (x : EReal) : EReal :=
  (c025 * Ideal.pow (c1 - sigR x) c2) * (-(Ideal.log (sigR x + ceps)))
    - (c075 * Ideal.pow (sigR x) c2) * (-(Ideal.log ((c1 - sigR x) + ceps)))

/-! ## The box terms -/

/-- L1 distance as the kernel adds it: coordinate by coordinate, left to right. -/
def l1K (p g : Fin 4 → EReal) : EReal :=
  ((max (p 0 - g 0) (-(p 0 - g 0)) + max (p 1 - g 1) (-(p 1 - g 1))) + max (p 2 - g 2) (-(p 2 - g 2)))
    + max (p 3 - g 3) (-(p 3 - g 3))

/-- L1 distance as the reference adds it: a sum over the four coordinates from zero. -/
def l1R (p g : Fin 4 → EReal) : EReal :=
  c0 + ∑ k : Fin 4, max (p k - g k) (-(p k - g k))

/-- The corners of a centre-size box: `(cx − ½w, cy − ½h, cx + ½w, cy + ½h)`. -/
def corners (b : Fin 4 → EReal) : Fin 4 → EReal :=
  ![b 0 - chalf * b 2, b 1 - chalf * b 3, b 0 + chalf * b 2, b 1 + chalf * b 3]

/-- The area of a corner box. -/
def area (a : Fin 4 → EReal) : EReal := (a 2 - a 0) * (a 3 - a 1)

/-- Generalized IoU of two corner boxes `a`, `g` with areas `sa`, `sg`, as the kernel computes it
    (each clip is `max · 0`). -/
def giouK (a g : Fin 4 → EReal) (sa sg : EReal) : EReal :=
  let inter := max (min (a 2) (g 2) - max (a 0) (g 0)) c0 * max (min (a 3) (g 3) - max (a 1) (g 1)) c0
  let union := (sa + sg) - inter
  let hull := max (max (a 2) (g 2) - min (a 0) (g 0)) c0 * max (max (a 3) (g 3) - min (a 1) (g 1)) c0
  Ideal.div inter union - Ideal.div (hull - union) hull

/-- The same as the reference computes it (each clip is `max 0 ·`). -/
def giouR (a g : Fin 4 → EReal) (sa sg : EReal) : EReal :=
  let inter := max c0 (min (a 2) (g 2) - max (a 0) (g 0)) * max c0 (min (a 3) (g 3) - max (a 1) (g 1))
  let union := (sa + sg) - inter
  let hull := max c0 (max (a 2) (g 2) - min (a 0) (g 0)) * max c0 (max (a 3) (g 3) - min (a 1) (g 1))
  Ideal.div inter union - Ideal.div (hull - union) hull

/-! ## The cost of one pair -/

/-- The kernel's cost of one (prediction, ground truth) pair: `x` the prediction's 91 logits, `oh` the 0/1 column of
    the ground truth's label, `p` the predicted box (cx, cy, w, h), `g` the ground-truth box in the same
    coordinates, `gc` its corners and `sg` its area as the host lines before the region computed them. -/
def costK (x oh : Fin 91 → EReal) (p g gc : Fin 4 → EReal) (sg : EReal) : EReal :=
  ((c2 * ((∑ k : Fin 91, focalK (x k) * oh k) + (∑ k : Fin 91, (focalK (x k) - focalK (x k)) * oh k)))
      + c5 * l1K p g)
    - c2 * giouK (corners p) gc (area (corners p)) sg

/-- The reference's cost of one pair: `x` the prediction's logits, `l` the ground truth's label as a class index,
    `p`, `g` the two boxes (cx, cy, w, h). -/
def costR (x : Fin 91 → EReal) (l : Fin 91) (p g : Fin 4 → EReal) : EReal :=
  ((c5 * l1R p g) + c2 * focalR (x l))
    + c2 * (-(giouR (corners p) (corners g) (area (corners p)) (area (corners g))))

end Cert.Spec

end
-- ==== Proof.KIBody.lean ====
/- The body's stored value at one entry is the kernel's cost of one pair.
   Entry (p, q) of the stored block depends on row p of the logits block and of the predicted boxes, and on column q
   of the three ground-truth tables and of the one-hot table: every operation of the body is pointwise, a broadcast of
   a column or a row, a slice of a column, or the contraction over the 91 classes. -/
import proofs.«412066_j62371515072731_3_alg».proof.Proof.KIBase
import proofs.«412066_j62371515072731_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

namespace Body

/-! ## Layout operations at an entry -/

/-- A column broadcast along the rows reads the column's entry in that row. -/
theorem bcCol_apply (v : FVec Ideal S1440x1 .f32) (h : S1440x1.Broadcasts S1440x1024) (p : Fin 1440) (q : Fin 1024) :
    broadcastTo S1440x1024 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row broadcast along the columns reads the row's entry in that column. -/
theorem bcRow_apply (v : FVec Ideal S1x1024 .f32) (h : S1x1024.Broadcasts S1440x1024) (p : Fin 1440) (q : Fin 1024) :
    broadcastTo S1440x1024 v h (ix2 p q) = v (ix2 (0 : Fin 1) q) :=
  broadcastTo_1b_ab_apply v h p q

/-- Column `k` of the box block, read in row `p`. -/
theorem colSlice_apply (v : FVec Ideal S1440x4 .f32) (o : Nat) (h : S1440x4.Slices ![0, o] S1440x1) (p : Fin 1440)
    (k : Fin 4) (hk : k.val = o) :
    extractStridedSlice S1440x1 ![0, o] v h (ix2 p (0 : Fin 1)) = v (ix2 p k) :=
  slice2_axis1_apply o v h p (0 : Fin 1) k (by rw [hk]; rfl)

/-- Row `k` of a four-row table, loaded as a one-row block, read in column `q`. -/
theorem ldRow_apply (x : Vec Ideal S4x1024 .f32) (o : Nat) (inb : ∀ a, (![o, 0] : Fin 2 → Nat) a + S1x1024.size a ≤ S4x1024.size a)
    (q : Fin 1024) (k : Fin 4) (hk : k.val = o) :
    View.ld x (Rect.unit (s := S4x1024) ![o, 0] S1x1024.size inb) (ix2 (0 : Fin 1) q) = x (ix2 k q) := by
  show x _ = x _
  refine congrArg x (funext fun a => Fin.ext ?_)
  match a with
  | ⟨0, _⟩ => show o + 1 * 0 = k.val; omega
  | ⟨1, _⟩ => show 0 + 1 * q.val = q.val; omega

/-! ## The contraction over the 91 classes -/

/-- The dimension numbers contract one axis … -/
theorem dot_contr_rank : dot_S1440x91_S91x1024_S1440x1024_1_0_0_1_n_n.contr.rank = 1 := rfl
/-- … of extent 91. -/
theorem dot_contr_size : dot_S1440x91_S91x1024_S1440x1024_1_0_0_1_n_n.contr.size ⟨0, by rw [dot_contr_rank]; exact Nat.one_pos⟩ = 91 := rfl

/-- The left operand is read in the output's row … -/
theorem lhs_dot_0 (p : Fin 1440) (q : Fin 1024) (c : dot_S1440x91_S91x1024_S1440x1024_1_0_0_1_n_n.contr.Idx) :
    (dot_S1440x91_S91x1024_S1440x1024_1_0_0_1_n_n.lhsIdx (ix2 p q) c (0 : Fin 2)).val = p.val := by
  simp [DotDims.lhsIdx, dot_S1440x91_S91x1024_S1440x1024_1_0_0_1_n_n]; rfl
/-- … at the contracted class; -/
theorem lhs_dot_1 (p : Fin 1440) (q : Fin 1024) (c : dot_S1440x91_S91x1024_S1440x1024_1_0_0_1_n_n.contr.Idx) :
    (dot_S1440x91_S91x1024_S1440x1024_1_0_0_1_n_n.lhsIdx (ix2 p q) c (1 : Fin 2)).val = (c ⟨0, by rw [dot_contr_rank]; exact Nat.one_pos⟩).val :=
  dot_S1440x91_S91x1024_S1440x1024_1_0_0_1_n_n.lhsIdx_val_of_single (cl := (1 : Fin 2)) rfl (ix2 p q) c
/-- the right operand at the contracted class … -/
theorem rhs_dot_0 (p : Fin 1440) (q : Fin 1024) (c : dot_S1440x91_S91x1024_S1440x1024_1_0_0_1_n_n.contr.Idx) :
    (dot_S1440x91_S91x1024_S1440x1024_1_0_0_1_n_n.rhsIdx (ix2 p q) c (0 : Fin 2)).val = (c ⟨0, by rw [dot_contr_rank]; exact Nat.one_pos⟩).val :=
  dot_S1440x91_S91x1024_S1440x1024_1_0_0_1_n_n.rhsIdx_val_of_single (cr := (0 : Fin 2)) rfl (ix2 p q) c
/-- … in the output's column. -/
theorem rhs_dot_1 (p : Fin 1440) (q : Fin 1024) (c : dot_S1440x91_S91x1024_S1440x1024_1_0_0_1_n_n.contr.Idx) :
    (dot_S1440x91_S91x1024_S1440x1024_1_0_0_1_n_n.rhsIdx (ix2 p q) c (1 : Fin 2)).val = q.val := by
  simp [DotDims.rhsIdx, dot_S1440x91_S91x1024_S1440x1024_1_0_0_1_n_n]; rfl

/-- The product into a zero accumulator, read at `(p, q)`: the sum over the classes of row `p` against column `q`. -/
theorem mm_apply (A : FVec Ideal S1440x91 .bf16) (B : FVec Ideal S91x1024 .bf16) (p : Fin 1440) (q : Fin 1024) :
    matmul dot_S1440x91_S91x1024_S1440x1024_1_0_0_1_n_n none A B (constant S1440x1024 .f32 0x00000000#32) (ix2 p q)
      = ∑ k : Fin 91, A (ix2 p k) * B (ix2 k q) := by
  show FloatOps.matmul _ none A B _ (ix2 p q) = _
  rw [Ideal.matmul_constant_zero_apply,
    ← Equiv.sum_comp (contrEquiv1 dot_S1440x91_S91x1024_S1440x1024_1_0_0_1_n_n 91 dot_contr_rank dot_contr_size).symm]
  refine Finset.sum_congr rfl fun c _ => ?_
  have hc := contrEquiv1_symm_val dot_S1440x91_S91x1024_S1440x1024_1_0_0_1_n_n 91 dot_contr_rank dot_contr_size c
  have hl : dot_S1440x91_S91x1024_S1440x1024_1_0_0_1_n_n.lhsIdx (ix2 p q)
      ((contrEquiv1 dot_S1440x91_S91x1024_S1440x1024_1_0_0_1_n_n 91 dot_contr_rank dot_contr_size).symm c) = ix2 p c :=
    Shape.idx_ext₂ (lhs_dot_0 p q _) ((lhs_dot_1 p q _).trans hc)
  have hr : dot_S1440x91_S91x1024_S1440x1024_1_0_0_1_n_n.rhsIdx (ix2 p q)
      ((contrEquiv1 dot_S1440x91_S91x1024_S1440x1024_1_0_0_1_n_n 91 dot_contr_rank dot_contr_size).symm c) = ix2 c q :=
    Shape.idx_ext₂ ((rhs_dot_0 p q _).trans hc) (rhs_dot_1 p q _)
  rw [hl, hr]

/-! ## The loads -/

/-- The whole block of logits is read as it is. -/
theorem ldLogits (x : Vec Ideal S1440x91 .f32) : View.ld x rLogits = x :=
  View.ld_unit_zero (S := S1440x91) (funext fun a => match a with | ⟨0, _⟩ => rfl | ⟨1, _⟩ => rfl) _ x
/-- The whole block of predicted boxes is read as it is. -/
theorem ldBox (x : Vec Ideal S1440x4 .f32) : View.ld x rBox = x :=
  View.ld_unit_zero (S := S1440x4) (funext fun a => match a with | ⟨0, _⟩ => rfl | ⟨1, _⟩ => rfl) _ x
/-- The row of areas is read as it is. -/
theorem ldArea (x : Vec Ideal S1x1024 .f32) : View.ld x rArea = x :=
  View.ld_unit_zero (S := S1x1024) (funext fun a => match a with | ⟨0, _⟩ => rfl | ⟨1, _⟩ => rfl) _ x
/-- The whole one-hot table is read as it is. -/
theorem ldHot (x : Vec Ideal S91x1024 .bf16) : View.ld x rHot = x :=
  View.ld_unit_zero (S := S91x1024) (funext fun a => match a with | ⟨0, _⟩ => rfl | ⟨1, _⟩ => rfl) _ x

/-- Row `k` of a four-row table, read in column `q`, for each of the four rows. -/
theorem ldRow0 (x : Vec Ideal S4x1024 .f32) (q : Fin 1024) : View.ld x rRow0 (ix2 (0 : Fin 1) q) = x (ix2 (0 : Fin 4) q) :=
  ldRow_apply x 0 _ q 0 rfl
theorem ldRow1 (x : Vec Ideal S4x1024 .f32) (q : Fin 1024) : View.ld x rRow1 (ix2 (0 : Fin 1) q) = x (ix2 (1 : Fin 4) q) :=
  ldRow_apply x 1 _ q 1 rfl
theorem ldRow2 (x : Vec Ideal S4x1024 .f32) (q : Fin 1024) : View.ld x rRow2 (ix2 (0 : Fin 1) q) = x (ix2 (2 : Fin 4) q) :=
  ldRow_apply x 2 _ q 2 rfl
theorem ldRow3 (x : Vec Ideal S4x1024 .f32) (q : Fin 1024) : View.ld x rRow3 (ix2 (0 : Fin 1) q) = x (ix2 (3 : Fin 4) q) :=
  ldRow_apply x 3 _ q 3 rfl

/-! ## The payloads at an entry -/

/-- An absolute value at an index is the larger of the element and its negation. -/
theorem absf_apply {s : Shape} {φ : FTy} (a : FVec Ideal s φ) (i : s.Idx) : absf a i = max (a i) (-(a i)) := rfl

/-- A cast of a block to its own shape changes nothing. -/
theorem pay3_eq (v35 : Vec Ideal S1440x4 .f32) : k0_pay3 v35 = v35 := shapeCast_self v35 _
theorem pay14_eq (v : Vec Ideal S1x1024 .f32) : k0_pay14 v = v := shapeCast_self v _
theorem pay15_eq (v : Vec Ideal S1x1024 .f32) : k0_pay15 v = v := shapeCast_self v _
theorem pay16_eq (v : Vec Ideal S1x1024 .f32) : k0_pay16 v = v := shapeCast_self v _
theorem pay17_eq (v : Vec Ideal S1x1024 .f32) : k0_pay17 v = v := shapeCast_self v _

/-- The four columns of the predicted boxes: centre x, centre y, width, height. -/
theorem pay4_apply (v35 : Vec Ideal S1440x4 .f32) (p : Fin 1440) : k0_pay4 v35 (ix2 p (0 : Fin 1)) = v35 (ix2 p (0 : Fin 4)) := by
  unfold k0_pay4; rw [pay3_eq]; exact colSlice_apply v35 0 _ p 0 rfl
theorem pay5_apply (v35 : Vec Ideal S1440x4 .f32) (p : Fin 1440) : k0_pay5 v35 (ix2 p (0 : Fin 1)) = v35 (ix2 p (1 : Fin 4)) := by
  unfold k0_pay5; rw [pay3_eq]; exact colSlice_apply v35 1 _ p 1 rfl
theorem pay6_apply (v35 : Vec Ideal S1440x4 .f32) (p : Fin 1440) : k0_pay6 v35 (ix2 p (0 : Fin 1)) = v35 (ix2 p (2 : Fin 4)) := by
  unfold k0_pay6; rw [pay3_eq]; exact colSlice_apply v35 2 _ p 2 rfl
theorem pay7_apply (v35 : Vec Ideal S1440x4 .f32) (p : Fin 1440) : k0_pay7 v35 (ix2 p (0 : Fin 1)) = v35 (ix2 p (3 : Fin 4)) := by
  unfold k0_pay7; rw [pay3_eq]; exact colSlice_apply v35 3 _ p 3 rfl

/-- The corners of the predicted box from its centre and size, and its area. -/
theorem pay9_apply (v37 v39 : FVec Ideal S1440x1 .f32) (j : S1440x1.Idx) : k0_pay9 v37 v39 j = v37 j - Spec.chalf * v39 j := rfl
theorem pay10_apply (v38 v40 : FVec Ideal S1440x1 .f32) (j : S1440x1.Idx) : k0_pay10 v38 v40 j = v38 j - Spec.chalf * v40 j := rfl
theorem pay11_apply (v37 v39 : FVec Ideal S1440x1 .f32) (j : S1440x1.Idx) : k0_pay11 v37 v39 j = v37 j + Spec.chalf * v39 j := rfl
theorem pay12_apply (v38 v40 : FVec Ideal S1440x1 .f32) (j : S1440x1.Idx) : k0_pay12 v38 v40 j = v38 j + Spec.chalf * v40 j := rfl
theorem pay13_apply (v37 v38 v39 v40 : FVec Ideal S1440x1 .f32) (j : S1440x1.Idx) :
    k0_pay13 v37 v38 v39 v40 j
      = ((v37 j + Spec.chalf * v39 j) - (v37 j - Spec.chalf * v39 j)) * ((v38 j + Spec.chalf * v40 j) - (v38 j - Spec.chalf * v40 j)) := rfl

/-- The focal cost contracted against the one-hot table, twice: once the cost itself, once the remainder the narrowing
    to sixteen bits leaves, which at exact values is the cost minus itself; the two added and doubled. -/
theorem pay2_apply (v0 : Vec Ideal S1440x91 .f32) (v28 : Vec Ideal S91x1024 .bf16) (p : Fin 1440) (q : Fin 1024) :
    k0_pay2 v0 v28 (ix2 p q)
      = Spec.c2 * ((∑ k : Fin 91, Spec.focalK (v0 (ix2 p k)) * v28 (ix2 k q))
          + ∑ k : Fin 91, (Spec.focalK (v0 (ix2 p k)) - Spec.focalK (v0 (ix2 p k))) * v28 (ix2 k q)) := by
  unfold k0_pay2
  rw [shapeCast_self v0, shapeCast_self v28]
  change Spec.c2 *
    (matmul (F := Ideal) dot_S1440x91_S91x1024_S1440x1024_1_0_0_1_n_n none (fun j => Spec.focalK (v0 j) : FVec Ideal S1440x91 .bf16) v28
        (constant S1440x1024 .f32 0x00000000#32) (ix2 p q)
      + matmul (F := Ideal) dot_S1440x91_S91x1024_S1440x1024_1_0_0_1_n_n none
        (fun j => Spec.focalK (v0 j) - Spec.focalK (v0 j) : FVec Ideal S1440x91 .bf16) v28
        (constant S1440x1024 .f32 0x00000000#32) (ix2 p q)) = _
  rw [mm_apply, mm_apply]

/-- The classification term plus five times the L1 distance of the two boxes. -/
theorem pay8_apply (v34 : FVec Ideal S1440x1024 .f32) (v37 v38 v39 v40 : FVec Ideal S1440x1 .f32)
    (v41 v43 v45 v47 : Vec Ideal S1x1024 .f32) (p : Fin 1440) (q : Fin 1024) :
    k0_pay8 v34 v37 v38 v39 v40 v41 v43 v45 v47 (ix2 p q)
      = v34 (ix2 p q) + Spec.c5 *
          (((max (v37 (ix2 p (0 : Fin 1)) - v41 (ix2 (0 : Fin 1) q)) (-(v37 (ix2 p (0 : Fin 1)) - v41 (ix2 (0 : Fin 1) q)))
            + max (v38 (ix2 p (0 : Fin 1)) - v43 (ix2 (0 : Fin 1) q)) (-(v38 (ix2 p (0 : Fin 1)) - v43 (ix2 (0 : Fin 1) q))))
            + max (v39 (ix2 p (0 : Fin 1)) - v45 (ix2 (0 : Fin 1) q)) (-(v39 (ix2 p (0 : Fin 1)) - v45 (ix2 (0 : Fin 1) q))))
            + max (v40 (ix2 p (0 : Fin 1)) - v47 (ix2 (0 : Fin 1) q)) (-(v40 (ix2 p (0 : Fin 1)) - v47 (ix2 (0 : Fin 1) q)))) := by
  simp only [k0_pay8, shapeCast_self, addf_apply, mulf_apply, subf_apply, absf_apply, broadcast_apply, bcCol_apply, bcRow_apply]
  rfl

/-- The intersection's area: the clipped overlap of the two boxes' spans, along x times along y. -/
theorem pay18_apply (v73 v76 v79 v82 : FVec Ideal S1440x1 .f32) (v87 : FVec Ideal S1x1024 .f32) (v88 v90 v92 : Vec Ideal S1x1024 .f32)
    (p : Fin 1440) (q : Fin 1024) :
    k0_pay18 v73 v76 v79 v82 v87 v88 v90 v92 (ix2 p q)
      = max (min (v79 (ix2 p (0 : Fin 1))) (v90 (ix2 (0 : Fin 1) q)) - max (v73 (ix2 p (0 : Fin 1))) (v87 (ix2 (0 : Fin 1) q))) Spec.c0
        * max (min (v82 (ix2 p (0 : Fin 1))) (v92 (ix2 (0 : Fin 1) q)) - max (v76 (ix2 p (0 : Fin 1))) (v88 (ix2 (0 : Fin 1) q))) Spec.c0 := by
  simp only [k0_pay18, pay15_eq, pay16_eq, pay17_eq, mulf_apply, subf_apply, maximumf_apply, minimumf_apply, broadcast_apply,
    bcCol_apply, bcRow_apply]
  rfl

/-- The union's area: the two areas added, less the intersection. -/
theorem pay19_apply (v73 v76 v79 v82 v85 : FVec Ideal S1440x1 .f32) (v87 : FVec Ideal S1x1024 .f32) (v88 v90 v92 v94 : Vec Ideal S1x1024 .f32)
    (p : Fin 1440) (q : Fin 1024) :
    k0_pay19 v73 v76 v79 v82 v85 v87 v88 v90 v92 v94 (ix2 p q)
      = (v85 (ix2 p (0 : Fin 1)) + v94 (ix2 (0 : Fin 1) q)) - k0_pay18 v73 v76 v79 v82 v87 v88 v90 v92 (ix2 p q) := by
  simp only [k0_pay19, shapeCast_self, addf_apply, subf_apply, bcCol_apply, bcRow_apply]

/-- The intersection over the union. -/
theorem pay20_apply (v73 v76 v79 v82 v85 : FVec Ideal S1440x1 .f32) (v87 : FVec Ideal S1x1024 .f32) (v88 v90 v92 v94 : Vec Ideal S1x1024 .f32)
    (p : Fin 1440) (q : Fin 1024) :
    k0_pay20 v73 v76 v79 v82 v85 v87 v88 v90 v92 v94 (ix2 p q)
      = Ideal.div (k0_pay18 v73 v76 v79 v82 v87 v88 v90 v92 (ix2 p q)) (k0_pay19 v73 v76 v79 v82 v85 v87 v88 v90 v92 v94 (ix2 p q)) := rfl

/-- The hull's clipped extent along x. -/
theorem pay21_apply (v73 v79 : FVec Ideal S1440x1 .f32) (v87 : FVec Ideal S1x1024 .f32) (v90 : Vec Ideal S1x1024 .f32)
    (p : Fin 1440) (q : Fin 1024) :
    k0_pay21 v73 v79 v87 v90 (ix2 p q)
      = max (max (v79 (ix2 p (0 : Fin 1))) (v90 (ix2 (0 : Fin 1) q)) - min (v73 (ix2 p (0 : Fin 1))) (v87 (ix2 (0 : Fin 1) q))) Spec.c0 := by
  simp only [k0_pay21, pay16_eq, subf_apply, maximumf_apply, minimumf_apply, broadcast_apply, bcCol_apply, bcRow_apply]
  rfl

/-- The hull's extent along y, not yet clipped. -/
theorem pay22_apply (v76 v82 : FVec Ideal S1440x1 .f32) (v88 v92 : Vec Ideal S1x1024 .f32) (p : Fin 1440) (q : Fin 1024) :
    k0_pay22 v76 v82 v88 v92 (ix2 p q)
      = max (v82 (ix2 p (0 : Fin 1))) (v92 (ix2 (0 : Fin 1) q)) - min (v76 (ix2 p (0 : Fin 1))) (v88 (ix2 (0 : Fin 1) q)) := by
  simp only [k0_pay22, pay15_eq, pay17_eq, subf_apply, maximumf_apply, minimumf_apply, bcCol_apply, bcRow_apply]

/-- The stored value: the two weighted terms less twice the generalized IoU, the hull's area the product of its clipped extents. -/
theorem pay1_apply (v70 v118 v119 v134 v135 : FVec Ideal S1440x1024 .f32) (c : Ideal .f32) (j : S1440x1024.Idx) :
    k0_pay1 v70 v118 v119 v134 v135 c j
      = v70 j - Spec.c2 * (v119 j - Ideal.div (v134 j * max (v135 j) c - v118 j) (v134 j * max (v135 j) c)) := rfl

end Body

open Body

/-! ## The stored value -/

/-- The stored value at entry `(p, q)`, from the input blocks' entries in row `p` and column `q`. -/
theorem bodyVal_apply (x0 : Vec Ideal S1440x91 .f32) (x1 : Vec Ideal S1440x4 .f32) (x2 x3 : Vec Ideal S4x1024 .f32)
    (x4 : Vec Ideal S1x1024 .f32) (x5 : Vec Ideal S91x1024 .bf16) (p : Fin 1440) (q : Fin 1024) :
    bodyVal (F := Ideal) x0 x1 x2 x3 x4 x5 (ix2 p q)
      = Spec.costK (fun k : Fin 91 => x0 (ix2 p k)) (fun k : Fin 91 => x5 (ix2 k q)) (fun k : Fin 4 => x1 (ix2 p k))
          (fun k : Fin 4 => x2 (ix2 k q)) (fun k : Fin 4 => x3 (ix2 k q)) (x4 (ix2 (0 : Fin 1) q)) := by
  unfold bodyVal
  simp only [ldLogits, ldBox, ldArea, ldHot, pay1_apply, pay8_apply, pay2_apply, pay20_apply, pay19_apply, pay18_apply,
    pay21_apply, pay22_apply, pay13_apply, pay9_apply, pay10_apply, pay11_apply, pay12_apply, pay4_apply, pay5_apply,
    pay6_apply, pay7_apply, pay14_eq]
  rw [ldRow0 x2 q, ldRow1 x2 q, ldRow2 x2 q, ldRow3 x2 q, ldRow0 x3 q, ldRow1 x3 q, ldRow2 x3 q, ldRow3 x3 q]
  rfl

end Cert.KernelIdeal.Hand

end
-- ==== Proof.KIHost.lean ====
/- The six arrays the region stages, read at an entry, as functions of the launch memory (at the ideal values).
   The logits and the predicted boxes are the arguments with their two leading axes merged. The three ground-truth
   tables are the ground-truth boxes padded to 1024 rows and transposed: the boxes themselves, their corners, and the
   corner boxes' areas. The one-hot table has a one exactly where the row's class index is the column's label.
   Only columns below 1000 matter: the lines after the region drop the padding. -/
import proofs.«412066_j62371515072731_3_alg».proof.Proof.KIBase
import proofs.«412066_j62371515072731_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.Lib.IdealHost

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

namespace Host

/-! ## The staged arrays as functions of the arguments

Each array is named once as a function of the argument it is computed from; the entry lemmas below read these
functions at an index, and the section after them identifies each staged array with its function. -/

/-- The ground-truth boxes padded to 1024 rows with a constant row. -/
def T5 (x : S1000x4.Idx → EReal) : FVec Ideal S1024x4 .f32 :=
  concatenate S1024x4 0 [⟨S1000x4, x⟩, ⟨S24x4, broadcastInDim S24x4 ![1] bcast_S4_S24x4_1 (fun i : S4.Idx => (FloatOps.ofBits .f32 (lit0 (S4.rowMajor i)) : Ideal .f32))⟩] concatenates_S1000x4_S24x4_S1024x4_d0

/-- One half in every entry of a 1024-vector. -/
def halfV : FVec Ideal S1024 .f32 :=
  broadcastInDim S1024 ![] bcast_S_S1024 (constant (F := Ideal) S_ .f32 0x3F000000#32)

/-- Column 0 … 3 of a 1024×4 table as a 1024-vector. -/
def col0 (y : FVec Ideal S1024x4 .f32) : FVec Ideal S1024 .f32 :=
  shapeCast S1024 (extractStridedSlice S1024x1 ![0, 0] y slices_S1024x4_S1024x1_0_0) shapeCasts_S1024x1_S1024
def col1 (y : FVec Ideal S1024x4 .f32) : FVec Ideal S1024 .f32 :=
  shapeCast S1024 (extractStridedSlice S1024x1 ![0, 1] y slices_S1024x4_S1024x1_0_1) shapeCasts_S1024x1_S1024
def col2 (y : FVec Ideal S1024x4 .f32) : FVec Ideal S1024 .f32 :=
  shapeCast S1024 (extractStridedSlice S1024x1 ![0, 2] y slices_S1024x4_S1024x1_0_2) shapeCasts_S1024x1_S1024
def col3 (y : FVec Ideal S1024x4 .f32) : FVec Ideal S1024 .f32 :=
  shapeCast S1024 (extractStridedSlice S1024x1 ![0, 3] y slices_S1024x4_S1024x1_0_3) shapeCasts_S1024x1_S1024

/-- A 1024-vector as a one-column table. -/
def asCol (v : FVec Ideal S1024 .f32) : FVec Ideal S1024x1 .f32 :=
  broadcastInDim S1024x1 ![0] bcast_S1024_S1024x1_0 v

/-- The corner table of the padded boxes: columns cx − ½w, cy − ½h, cx + ½w, cy + ½h. -/
def T33 (x : S1000x4.Idx → EReal) : FVec Ideal S1024x4 .f32 :=
  concatenate S1024x4 1
    [⟨S1024x1, asCol (subf (col0 (T5 x)) (mulf halfV (col2 (T5 x))))⟩,
     ⟨S1024x1, asCol (subf (col1 (T5 x)) (mulf halfV (col3 (T5 x))))⟩,
     ⟨S1024x1, asCol (addf (col0 (T5 x)) (mulf halfV (col2 (T5 x))))⟩,
     ⟨S1024x1, asCol (addf (col1 (T5 x)) (mulf halfV (col3 (T5 x))))⟩]
    concatenates_S1024x1_S1024x1_S1024x1_S1024x1_S1024x4_d1

/-- The areas of the corner boxes, as a 1024-vector. -/
def T45 (x : S1000x4.Idx → EReal) : FVec Ideal S1024 .f32 :=
  mulf (subf (col2 (T33 x)) (col0 (T33 x))) (subf (col3 (T33 x)) (col1 (T33 x)))

/-- The one-hot table of the labels, 1000×91, before it is transposed and padded. -/
def H2 (l : IVec S1000 32) : FVec Ideal S1000x91 .f32 :=
  uitofp .f32 (cmpi .eq
    (broadcastInDim S1000x91 ![0, 1] bcast_S1000x1_S1000x91_0_1 (broadcastInDim S1000x1 ![0] bcast_S1000_S1000x1_0 l))
    (broadcastInDim S1000x91 ![0, 1] bcast_S1x91_S1000x91_0_1 (iotaInDim S1x91 32 1)))

/-- The table transposed, padded with zero columns to 1024, in the narrow format. -/
def H7 (l : IVec S1000 32) : FVec Ideal S91x1024 .bf16 :=
  truncf .bf16
    (pad S91x1024 ![0, 0] ![0, 24] ![0, 0] (transpose S91x1000 [1, 0] (H2 l) transposes_S1000x91_S91x1000_1_0)
      (sitofp (F := Ideal) .f32 (constantI S_ 32 0#32)) pads_S91x1000_S91x1024_000_0240 h_S_)
    bitsLt_bf16_f32

/-! ## The padded box table and its columns, read at an entry -/

/-- A row below 1000 of the padded table is the ground-truth box of that row. -/
theorem T5_apply (x : S1000x4.Idx → EReal) (j : Fin 1000) (k : Fin 4) :
    T5 x (ix2 (⟨j.val, by have := j.isLt; omega⟩ : Fin 1024) k) = x (ix2 j k) := by
  unfold T5
  refine concatenate_pair_apply_left (t := S1024x4) (s₁ := S1000x4) (s₂ := S24x4) (0 : Fin 2) x _
    concatenates_S1000x4_S24x4_S1024x4_d0 _ rfl (ix2 j k) ?_
  intro b
  match b with
  | ⟨0, _⟩ => rfl
  | ⟨1, _⟩ => rfl

theorem halfV_apply (i : S1024.Idx) : halfV i = Spec.chalf := rfl

theorem col0_apply (y : FVec Ideal S1024x4 .f32) (i : Fin 1024) : col0 y (ix1 i) = y (ix2 i (0 : Fin 4)) := by
  unfold col0
  refine (shapeCast_apply _ shapeCasts_S1024x1_S1024 (ix1 i) (ix2 i (0 : Fin 1)) ?_).trans ?_
  · rw [Shape.rowMajor_val_two, Shape.rowMajor_val_one]
    show i.val * 1 + 0 = i.val
    omega
  · exact slice2_axis1_apply 0 y slices_S1024x4_S1024x1_0_0 i (0 : Fin 1) (0 : Fin 4) rfl

theorem col1_apply (y : FVec Ideal S1024x4 .f32) (i : Fin 1024) : col1 y (ix1 i) = y (ix2 i (1 : Fin 4)) := by
  unfold col1
  refine (shapeCast_apply _ shapeCasts_S1024x1_S1024 (ix1 i) (ix2 i (0 : Fin 1)) ?_).trans ?_
  · rw [Shape.rowMajor_val_two, Shape.rowMajor_val_one]
    show i.val * 1 + 0 = i.val
    omega
  · exact slice2_axis1_apply 1 y slices_S1024x4_S1024x1_0_1 i (0 : Fin 1) (1 : Fin 4) rfl

theorem col2_apply (y : FVec Ideal S1024x4 .f32) (i : Fin 1024) : col2 y (ix1 i) = y (ix2 i (2 : Fin 4)) := by
  unfold col2
  refine (shapeCast_apply _ shapeCasts_S1024x1_S1024 (ix1 i) (ix2 i (0 : Fin 1)) ?_).trans ?_
  · rw [Shape.rowMajor_val_two, Shape.rowMajor_val_one]
    show i.val * 1 + 0 = i.val
    omega
  · exact slice2_axis1_apply 2 y slices_S1024x4_S1024x1_0_2 i (0 : Fin 1) (2 : Fin 4) rfl

theorem col3_apply (y : FVec Ideal S1024x4 .f32) (i : Fin 1024) : col3 y (ix1 i) = y (ix2 i (3 : Fin 4)) := by
  unfold col3
  refine (shapeCast_apply _ shapeCasts_S1024x1_S1024 (ix1 i) (ix2 i (0 : Fin 1)) ?_).trans ?_
  · rw [Shape.rowMajor_val_two, Shape.rowMajor_val_one]
    show i.val * 1 + 0 = i.val
    omega
  · exact slice2_axis1_apply 3 y slices_S1024x4_S1024x1_0_3 i (0 : Fin 1) (3 : Fin 4) rfl

theorem asCol_apply (v : FVec Ideal S1024 .f32) (i : Fin 1024) : asCol v (ix2 i (0 : Fin 1)) = v (ix1 i) := by
  unfold asCol
  refine broadcastInDim_apply _ bcast_S1024_S1024x1_0 v _ (ix1 i) ?_
  intro a
  match a with
  | ⟨0, _⟩ =>
    show i.val = if (1024 : ℕ) = 1 then 0 else i.val
    rw [if_neg (by norm_num)]

/-- Four one-column tables set side by side read, in column `k`, the `k`-th of them. -/
theorem cat4_apply0 (p0 p1 p2 p3 : FVec Ideal S1024x1 .f32) (i : Fin 1024) :
    concatenate S1024x4 1 [⟨S1024x1, p0⟩, ⟨S1024x1, p1⟩, ⟨S1024x1, p2⟩, ⟨S1024x1, p3⟩]
      concatenates_S1024x1_S1024x1_S1024x1_S1024x1_S1024x4_d1 (ix2 i (0 : Fin 4)) = p0 (ix2 i (0 : Fin 1)) := by
  refine concatenate_apply_piece (t := S1024x4) (1 : Fin 2) [⟨S1024x1, p0⟩, ⟨S1024x1, p1⟩, ⟨S1024x1, p2⟩, ⟨S1024x1, p3⟩]
    concatenates_S1024x1_S1024x1_S1024x1_S1024x1_S1024x4_d1 (ix2 i (0 : Fin 4)) 0 (show (0 : ℕ) < 4 by norm_num) S1024x1 p0 rfl rfl 0 rfl
    (ix2 i (0 : Fin 1)) ?_ rfl
  intro b hb
  match b, hb with
  | ⟨0, _⟩, _ => rfl
  | ⟨1, _⟩, hb => exact absurd rfl hb

theorem cat4_apply1 (p0 p1 p2 p3 : FVec Ideal S1024x1 .f32) (i : Fin 1024) :
    concatenate S1024x4 1 [⟨S1024x1, p0⟩, ⟨S1024x1, p1⟩, ⟨S1024x1, p2⟩, ⟨S1024x1, p3⟩]
      concatenates_S1024x1_S1024x1_S1024x1_S1024x1_S1024x4_d1 (ix2 i (1 : Fin 4)) = p1 (ix2 i (0 : Fin 1)) := by
  refine concatenate_apply_piece (t := S1024x4) (1 : Fin 2) [⟨S1024x1, p0⟩, ⟨S1024x1, p1⟩, ⟨S1024x1, p2⟩, ⟨S1024x1, p3⟩]
    concatenates_S1024x1_S1024x1_S1024x1_S1024x1_S1024x4_d1 (ix2 i (1 : Fin 4)) 1 (show (1 : ℕ) < 4 by norm_num) S1024x1 p1 rfl rfl 1 rfl
    (ix2 i (0 : Fin 1)) ?_ rfl
  intro b hb
  match b, hb with
  | ⟨0, _⟩, _ => rfl
  | ⟨1, _⟩, hb => exact absurd rfl hb

theorem cat4_apply2 (p0 p1 p2 p3 : FVec Ideal S1024x1 .f32) (i : Fin 1024) :
    concatenate S1024x4 1 [⟨S1024x1, p0⟩, ⟨S1024x1, p1⟩, ⟨S1024x1, p2⟩, ⟨S1024x1, p3⟩]
      concatenates_S1024x1_S1024x1_S1024x1_S1024x1_S1024x4_d1 (ix2 i (2 : Fin 4)) = p2 (ix2 i (0 : Fin 1)) := by
  refine concatenate_apply_piece (t := S1024x4) (1 : Fin 2) [⟨S1024x1, p0⟩, ⟨S1024x1, p1⟩, ⟨S1024x1, p2⟩, ⟨S1024x1, p3⟩]
    concatenates_S1024x1_S1024x1_S1024x1_S1024x1_S1024x4_d1 (ix2 i (2 : Fin 4)) 2 (show (2 : ℕ) < 4 by norm_num) S1024x1 p2 rfl rfl 2 rfl
    (ix2 i (0 : Fin 1)) ?_ rfl
  intro b hb
  match b, hb with
  | ⟨0, _⟩, _ => rfl
  | ⟨1, _⟩, hb => exact absurd rfl hb

theorem cat4_apply3 (p0 p1 p2 p3 : FVec Ideal S1024x1 .f32) (i : Fin 1024) :
    concatenate S1024x4 1 [⟨S1024x1, p0⟩, ⟨S1024x1, p1⟩, ⟨S1024x1, p2⟩, ⟨S1024x1, p3⟩]
      concatenates_S1024x1_S1024x1_S1024x1_S1024x1_S1024x4_d1 (ix2 i (3 : Fin 4)) = p3 (ix2 i (0 : Fin 1)) := by
  refine concatenate_apply_piece (t := S1024x4) (1 : Fin 2) [⟨S1024x1, p0⟩, ⟨S1024x1, p1⟩, ⟨S1024x1, p2⟩, ⟨S1024x1, p3⟩]
    concatenates_S1024x1_S1024x1_S1024x1_S1024x1_S1024x4_d1 (ix2 i (3 : Fin 4)) 3 (show (3 : ℕ) < 4 by norm_num) S1024x1 p3 rfl rfl 3 rfl
    (ix2 i (0 : Fin 1)) ?_ rfl
  intro b hb
  match b, hb with
  | ⟨0, _⟩, _ => rfl
  | ⟨1, _⟩, hb => exact absurd rfl hb

/-- A row below 1000 of the corner table is the corners of that row's ground-truth box. -/
theorem T33_apply (x : S1000x4.Idx → EReal) (j : Fin 1000) (k : Fin 4) :
    T33 x (ix2 (⟨j.val, by have := j.isLt; omega⟩ : Fin 1024) k) = Spec.corners (fun a : Fin 4 => x (ix2 j a)) k := by
  unfold T33
  match k with
  | ⟨0, _⟩ =>
    refine (cat4_apply0 _ _ _ _ _).trans ?_
    rw [asCol_apply, subf_apply, mulf_apply, col0_apply, col2_apply, halfV_apply, T5_apply, T5_apply]
    rfl
  | ⟨1, _⟩ =>
    refine (cat4_apply1 _ _ _ _ _).trans ?_
    rw [asCol_apply, subf_apply, mulf_apply, col1_apply, col3_apply, halfV_apply, T5_apply, T5_apply]
    rfl
  | ⟨2, _⟩ =>
    refine (cat4_apply2 _ _ _ _ _).trans ?_
    rw [asCol_apply, addf_apply, mulf_apply, col0_apply, col2_apply, halfV_apply, T5_apply, T5_apply]
    rfl
  | ⟨3, _⟩ =>
    refine (cat4_apply3 _ _ _ _ _).trans ?_
    rw [asCol_apply, addf_apply, mulf_apply, col1_apply, col3_apply, halfV_apply, T5_apply, T5_apply]
    rfl

/-- An entry below 1000 of the area vector is the area of that row's corner box. -/
theorem T45_apply (x : S1000x4.Idx → EReal) (j : Fin 1000) :
    T45 x (ix1 (⟨j.val, by have := j.isLt; omega⟩ : Fin 1024)) = Spec.area (Spec.corners (fun a : Fin 4 => x (ix2 j a))) := by
  unfold T45
  rw [mulf_apply, subf_apply, subf_apply, col0_apply, col1_apply, col2_apply, col3_apply,
    T33_apply, T33_apply, T33_apply, T33_apply]
  rfl

/-! ## The one-hot table read at an entry -/

/-- The equality test of two words, read as a number, is one when they are equal and zero otherwise. -/
theorem uitofp_cmpi_eq (a b : BitVec 32) :
    (FloatOps.uitofp (F := Ideal) .f32 (IntOp.cmpi .eq a b) : EReal) = if a = b then (1 : EReal) else 0 := by
  show (((IntOp.cmpi .eq a b).toNat : ℝ) : EReal) = _
  unfold IntOp.cmpi
  by_cases h : a = b
  · rw [if_pos h]; subst h; simp
  · rw [if_neg h]
    have hb : (a == b) = false := by simpa using h
    simp [hb]

theorem H2_apply (l : IVec S1000 32) (j : Fin 1000) (k : Fin 91) :
    H2 l (ix2 j k) = if l (ix1 j) = BitVec.ofNat 32 k.val then (1 : EReal) else 0 := by
  have e1 : broadcastInDim S1000x91 ![0, 1] bcast_S1000x1_S1000x91_0_1 (broadcastInDim S1000x1 ![0] bcast_S1000_S1000x1_0 l) (ix2 j k)
      = l (ix1 j) := by
    refine (broadcastInDim_apply _ bcast_S1000x1_S1000x91_0_1 _ (ix2 j k) (ix2 j (0 : Fin 1)) ?_).trans ?_
    · intro a
      match a with
      | ⟨0, _⟩ =>
        show j.val = if (1000 : ℕ) = 1 then 0 else j.val
        rw [if_neg (by norm_num)]
      | ⟨1, _⟩ =>
        show 0 = if (1 : ℕ) = 1 then 0 else k.val
        rw [if_pos rfl]
    · refine broadcastInDim_apply _ bcast_S1000_S1000x1_0 l (ix2 j (0 : Fin 1)) (ix1 j) ?_
      intro a
      match a with
      | ⟨0, _⟩ =>
        show j.val = if (1000 : ℕ) = 1 then 0 else j.val
        rw [if_neg (by norm_num)]
  have e2 : broadcastInDim S1000x91 ![0, 1] bcast_S1x91_S1000x91_0_1 (iotaInDim S1x91 32 1) (ix2 j k)
      = BitVec.ofNat 32 k.val := by
    refine (broadcastInDim_apply _ bcast_S1x91_S1000x91_0_1 _ (ix2 j k) (ix2 (0 : Fin 1) k) ?_).trans rfl
    intro a
    match a with
    | ⟨0, _⟩ =>
      show 0 = if (1 : ℕ) = 1 then 0 else j.val
      rw [if_pos rfl]
    | ⟨1, _⟩ =>
      show k.val = if (91 : ℕ) = 1 then 0 else k.val
      rw [if_neg (by norm_num)]
  show FloatOps.uitofp (F := Ideal) .f32 (IntOp.cmpi .eq _ _) = _
  rw [e1, e2, uitofp_cmpi_eq]

theorem H7_apply (l : IVec S1000 32) (k : Fin 91) (j : Fin 1000) :
    H7 l (ix2 k (⟨j.val, by have := j.isLt; omega⟩ : Fin 1024)) = if l (ix1 j) = BitVec.ofNat 32 k.val then (1 : EReal) else 0 := by
  unfold H7
  rw [truncf_apply]
  refine (pad_apply_of_inside _ _ _ _ _ pads_S91x1000_S91x1024_000_0240 h_S_ _ (ix2 k j) ?_).trans ?_
  · intro a
    match a with
    | ⟨0, _⟩ => show k.val = 0 + k.val * (0 + 1); omega
    | ⟨1, _⟩ => show j.val = 0 + j.val * (0 + 1); omega
  · rw [transpose_ix2_apply, H2_apply]

/-! ## Each staged array is its function of the arguments -/

section Staged
variable (m : (ℓ : Loc nD τ sig) → Buf (Elt Ideal) ℓ)

/-- The merged logits are the argument with its two leading axes made one. -/
theorem e_v0 (c : Dev nD) : (V m c main_v0 : S14400x91.Idx → EReal)
    = shapeCast S14400x91 (m ((c : Thread nD τ).loc main_arg0) : S16x900x91.Idx → EReal) shapeCasts_S16x900x91_S14400x91 := by
  dsimp only [V, V0]
  simp only [hostOps0, hostOps0_1, hostOps0_2, hostOps0_3, hostOps0_4, List.flatten_cons, List.flatten_nil, List.append_nil,
    List.cons_append, List.nil_append]
  after_results
  rfl

/-- The same for the predicted boxes. -/
theorem e_v1 (c : Dev nD) : (V m c main_v1 : S14400x4.Idx → EReal)
    = shapeCast S14400x4 (m ((c : Thread nD τ).loc main_arg1) : S16x900x4.Idx → EReal) shapeCasts_S16x900x4_S14400x4 := by
  dsimp only [V, V0]
  simp only [hostOps0, hostOps0_1, hostOps0_2, hostOps0_3, hostOps0_4, List.flatten_cons, List.flatten_nil, List.append_nil,
    List.cons_append, List.nil_append]
  after_results
  rfl

/-- The table of ground-truth boxes is the padded table transposed. -/
theorem e_v8 (c : Dev nD) : (V m c main_v8 : S4x1024.Idx → EReal)
    = transpose S4x1024 [1, 0] (T5 (m ((c : Thread nD τ).loc main_arg2) : S1000x4.Idx → EReal)) transposes_S1024x4_S4x1024_1_0 := by
  dsimp only [V, V0]
  simp only [hostOps0, hostOps0_1, hostOps0_2, hostOps0_3, hostOps0_4, List.flatten_cons, List.flatten_nil, List.append_nil,
    List.cons_append, List.nil_append]
  after_results
  rfl

/-- The table of corners is the corner table transposed. -/
theorem e_v34 (c : Dev nD) : (V m c main_v34 : S4x1024.Idx → EReal)
    = transpose S4x1024 [1, 0] (T33 (m ((c : Thread nD τ).loc main_arg2) : S1000x4.Idx → EReal)) transposes_S1024x4_S4x1024_1_0 := by
  dsimp only [V, V0]
  simp only [hostOps0, hostOps0_1, hostOps0_2, hostOps0_3, hostOps0_4, List.flatten_cons, List.flatten_nil, List.append_nil,
    List.cons_append, List.nil_append]
  after_results
  rfl

set_option maxHeartbeats 4000000 in
/-- The row of areas is the area vector as a one-row table. -/
theorem e_v46 (c : Dev nD) : (V m c main_v46 : S1x1024.Idx → EReal)
    = shapeCast S1x1024 (T45 (m ((c : Thread nD τ).loc main_arg2) : S1000x4.Idx → EReal)) shapeCasts_S1024_S1x1024 := by
  dsimp only [V, V0]
  simp only [hostOps0, hostOps0_1, hostOps0_2, hostOps0_3, hostOps0_4, List.flatten_cons, List.flatten_nil, List.append_nil,
    List.cons_append, List.nil_append]
  after_results
  rfl

/-- The staged one-hot table is the one-hot function of the labels. -/
theorem e_v7 (c : Dev nD) : (V m c main_v7 : S91x1024.Idx → EReal)
    = H7 (m ((c : Thread nD τ).loc main_arg3) : S1000.Idx → BitVec 32) := by
  dsimp only [V, V0]
  simp only [hostOps0, hostOps0_1, hostOps0_2, hostOps0_3, hostOps0_4, List.flatten_cons, List.flatten_nil, List.append_nil,
    List.cons_append, List.nil_append]
  after_results
  rfl

end Staged

end Host

/-! ## The six arrays read at an entry -/

open Host

variable (m : (ℓ : Loc nD τ sig) → Buf (Elt Ideal) ℓ)

/-- Row `n` of the merged logits is row `(n / 900, n % 900)` of the argument. -/
theorem V_v0_apply (c : Dev nD) (n : Fin 14400) (k : Fin 91) :
    (V m c main_v0 : S14400x91.Idx → EReal) (ix2 n k)
      = (m ((c : Thread nD τ).loc main_arg0) : S16x900x91.Idx → EReal)
          (ix3 (⟨n.val / 900, by have := n.isLt; omega⟩ : Fin 16) (⟨n.val % 900, Nat.mod_lt _ (by norm_num)⟩ : Fin 900) k) := by
  rw [e_v0]
  exact shapeCast_apply _ shapeCasts_S16x900x91_S14400x91 _ _
    (by rw [Shape.rowMajor_val_three, Shape.rowMajor_val_two]
        show (n.val / 900 * 900 + n.val % 900) * 91 + k.val = n.val * 91 + k.val
        rw [Nat.div_add_mod' n.val 900])

/-- The same for the predicted boxes. -/
theorem V_v1_apply (c : Dev nD) (n : Fin 14400) (k : Fin 4) :
    (V m c main_v1 : S14400x4.Idx → EReal) (ix2 n k)
      = (m ((c : Thread nD τ).loc main_arg1) : S16x900x4.Idx → EReal)
          (ix3 (⟨n.val / 900, by have := n.isLt; omega⟩ : Fin 16) (⟨n.val % 900, Nat.mod_lt _ (by norm_num)⟩ : Fin 900) k) := by
  rw [e_v1]
  exact shapeCast_apply _ shapeCasts_S16x900x4_S14400x4 _ _
    (by rw [Shape.rowMajor_val_three, Shape.rowMajor_val_two]
        show (n.val / 900 * 900 + n.val % 900) * 4 + k.val = n.val * 4 + k.val
        rw [Nat.div_add_mod' n.val 900])

/-- Column `j < 1000` of the transposed padded boxes is ground-truth box `j`. -/
theorem V_v8_apply (c : Dev nD) (k : Fin 4) (j : Fin 1000) :
    (V m c main_v8 : S4x1024.Idx → EReal) (ix2 k (⟨j.val, by have := j.isLt; omega⟩ : Fin 1024))
      = (m ((c : Thread nD τ).loc main_arg2) : S1000x4.Idx → EReal) (ix2 j k) := by
  rw [e_v8, transpose_ix2_apply, T5_apply]

/-- Column `j < 1000` of the corner table is the corners of ground-truth box `j`. -/
theorem V_v34_apply (c : Dev nD) (k : Fin 4) (j : Fin 1000) :
    (V m c main_v34 : S4x1024.Idx → EReal) (ix2 k (⟨j.val, by have := j.isLt; omega⟩ : Fin 1024))
      = Spec.corners (fun a : Fin 4 => (m ((c : Thread nD τ).loc main_arg2) : S1000x4.Idx → EReal) (ix2 j a)) k := by
  rw [e_v34, transpose_ix2_apply, T33_apply]

/-- Entry `j < 1000` of the area row is the area of ground-truth box `j`'s corner box. -/
theorem V_v46_apply (c : Dev nD) (j : Fin 1000) :
    (V m c main_v46 : S1x1024.Idx → EReal) (ix2 (0 : Fin 1) (⟨j.val, by have := j.isLt; omega⟩ : Fin 1024))
      = Spec.area (Spec.corners (fun a : Fin 4 => (m ((c : Thread nD τ).loc main_arg2) : S1000x4.Idx → EReal) (ix2 j a))) := by
  rw [e_v46, shapeCast_a_1a_apply, T45_apply]

/-- Entry `(k, j)` of the one-hot table, `j < 1000`: one if label `j` is the word of class `k`, else zero. -/
theorem V_v7_apply (c : Dev nD) (k : Fin 91) (j : Fin 1000) :
    (V m c main_v7 : S91x1024.Idx → EReal) (ix2 k (⟨j.val, by have := j.isLt; omega⟩ : Fin 1024))
      = if (m ((c : Thread nD τ).loc main_arg3) : S1000.Idx → BitVec 32) (ix1 j) = BitVec.ofNat 32 k.val then (1 : EReal) else 0 := by
  rw [e_v7, H7_apply]

end Cert.KernelIdeal.Hand

end
-- ==== Proof.KIValue.lean ====
/- The array the region leaves, and the result the program returns, entry by entry.
   Grid point t writes rows 1440·t … 1440·t + 1439 of the 14400 × 1024 output, all 1024 columns; the ten points tile
   it. Entry (p, q) of point t's block is the kernel's cost of prediction 1440·t + p against column q of the staged
   ground-truth tables, so the whole array is one function of the arrays the region found. The two lines after the
   region keep columns 0 … 999 and split the row index into (image, query). -/
import proofs.«412066_j62371515072731_3_alg».proof.Proof.KIFrame
import proofs.«412066_j62371515072731_3_alg».proof.Proof.KIBody
import proofs.«412066_j62371515072731_3_alg».proof.Proof.KIHost
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The grid and the windows' blocks -/

theorem hz : (![0, 0] : Fin 2 → Nat) = fun _ => 0 := funext fun a => by fin_cases a <;> rfl

/-- The grid has ten points. -/
theorem t_lt (t : Fin cfg0.N) : t.val < 10 := by
  have h := t.isLt
  have e : cfg0.N = 10 := N_0
  omega

/-- The printed index maps over the grid: the logits, the predicted boxes and the output move down one block of rows
    per point; the four ground-truth tables stay where they are. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block of logits is row `1440 t + p` of the merged logits. -/
theorem iblk0_apply (c : Dev nD) (t : Fin cfg0.N) (p : Fin 1440) (k : Fin 91) :
    (iblk m c 0 t : S1440x91.Idx → EReal) (ix2 p k)
      = (V m c main_v0 : S14400x91.Idx → EReal) (ix2 (⟨t.val * 1440 + p.val, by have := t_lt t; have := p.isLt; omega⟩ : Fin 14400) k) := by
  obtain ⟨e0, e1, -⟩ := idx_facts t
  show V m c main_v0 (((cfg0.win 0).blk t).view.emb (ix2 p k)) = _
  refine congrArg _ ?_
  funext a; apply Fin.ext
  match a with
  | ⟨0, _⟩ => show win0_0.index t (0 : Fin 2) * 1440 + 1 * p.val = t.val * 1440 + p.val; omega
  | ⟨1, _⟩ => show win0_0.index t (1 : Fin 2) * 91 + 1 * k.val = k.val; omega

/-- The same for the predicted boxes. -/
theorem iblk1_apply (c : Dev nD) (t : Fin cfg0.N) (p : Fin 1440) (k : Fin 4) :
    (iblk m c 1 t : S1440x4.Idx → EReal) (ix2 p k)
      = (V m c main_v1 : S14400x4.Idx → EReal) (ix2 (⟨t.val * 1440 + p.val, by have := t_lt t; have := p.isLt; omega⟩ : Fin 14400) k) := by
  obtain ⟨-, -, e0, e1, -⟩ := idx_facts t
  show V m c main_v1 (((cfg0.win 1).blk t).view.emb (ix2 p k)) = _
  refine congrArg _ ?_
  funext a; apply Fin.ext
  match a with
  | ⟨0, _⟩ => show win0_1.index t (0 : Fin 2) * 1440 + 1 * p.val = t.val * 1440 + p.val; omega
  | ⟨1, _⟩ => show win0_1.index t (1 : Fin 2) * 4 + 1 * k.val = k.val; omega

/-- A ground-truth table's block is the whole table at every point. -/
theorem iblk2_apply (c : Dev nD) (t : Fin cfg0.N) (k : Fin 4) (q : Fin 1024) :
    (iblk m c 2 t : S4x1024.Idx → EReal) (ix2 k q) = (V m c main_v8 : S4x1024.Idx → EReal) (ix2 k q) := by
  obtain ⟨-, -, -, -, e0, e1, -⟩ := idx_facts t
  show V m c main_v8 (((cfg0.win 2).blk t).view.emb (ix2 k q)) = _
  refine congrArg _ ?_
  funext a; apply Fin.ext
  match a with
  | ⟨0, _⟩ => show win0_2.index t (0 : Fin 2) * 4 + 1 * k.val = k.val; omega
  | ⟨1, _⟩ => show win0_2.index t (1 : Fin 2) * 1024 + 1 * q.val = q.val; omega

theorem iblk3_apply (c : Dev nD) (t : Fin cfg0.N) (k : Fin 4) (q : Fin 1024) :
    (iblk m c 3 t : S4x1024.Idx → EReal) (ix2 k q) = (V m c main_v34 : S4x1024.Idx → EReal) (ix2 k q) := by
  obtain ⟨-, -, -, -, -, -, e0, e1, -⟩ := idx_facts t
  show V m c main_v34 (((cfg0.win 3).blk t).view.emb (ix2 k q)) = _
  refine congrArg _ ?_
  funext a; apply Fin.ext
  match a with
  | ⟨0, _⟩ => show win0_3.index t (0 : Fin 2) * 4 + 1 * k.val = k.val; omega
  | ⟨1, _⟩ => show win0_3.index t (1 : Fin 2) * 1024 + 1 * q.val = q.val; omega

theorem iblk4_apply (c : Dev nD) (t : Fin cfg0.N) (q : Fin 1024) :
    (iblk m c 4 t : S1x1024.Idx → EReal) (ix2 (0 : Fin 1) q) = (V m c main_v46 : S1x1024.Idx → EReal) (ix2 (0 : Fin 1) q) := by
  obtain ⟨-, -, -, -, -, -, -, -, e0, e1, -⟩ := idx_facts t
  show V m c main_v46 (((cfg0.win 4).blk t).view.emb (ix2 (0 : Fin 1) q)) = _
  refine congrArg _ ?_
  funext a; apply Fin.ext
  match a with
  | ⟨0, _⟩ => show win0_4.index t (0 : Fin 2) * 1 + 1 * 0 = 0; omega
  | ⟨1, _⟩ => show win0_4.index t (1 : Fin 2) * 1024 + 1 * q.val = q.val; omega

theorem iblk5_apply (c : Dev nD) (t : Fin cfg0.N) (k : Fin 91) (q : Fin 1024) :
    (iblk m c 5 t : S91x1024.Idx → EReal) (ix2 k q) = (V m c main_v7 : S91x1024.Idx → EReal) (ix2 k q) := by
  obtain ⟨-, -, -, -, -, -, -, -, -, -, e0, e1, -⟩ := idx_facts t
  show V m c main_v7 (((cfg0.win 5).blk t).view.emb (ix2 k q)) = _
  refine congrArg _ ?_
  funext a; apply Fin.ext
  match a with
  | ⟨0, _⟩ => show win0_5.index t (0 : Fin 2) * 91 + 1 * k.val = k.val; omega
  | ⟨1, _⟩ => show win0_5.index t (1 : Fin 2) * 1024 + 1 * q.val = q.val; omega

/-! ## The output array -/

/-- The cost of prediction `n` against column `q` of the staged ground-truth tables. -/
def outAt (c : Dev nD) (n : Fin 14400) (q : Fin 1024) : EReal :=
  Spec.costK
    (fun k : Fin 91 => (V m c main_v0 : S14400x91.Idx → EReal) (ix2 n k))
    (fun k : Fin 91 => (V m c main_v7 : S91x1024.Idx → EReal) (ix2 k q))
    (fun k : Fin 4 => (V m c main_v1 : S14400x4.Idx → EReal) (ix2 n k))
    (fun k : Fin 4 => (V m c main_v8 : S4x1024.Idx → EReal) (ix2 k q))
    (fun k : Fin 4 => (V m c main_v34 : S4x1024.Idx → EReal) (ix2 k q))
    ((V m c main_v46 : S1x1024.Idx → EReal) (ix2 (0 : Fin 1) q))

/-- The array the output window ends holding. -/
def outArr (c : Dev nD) : S14400x1024.Idx → EReal := fun i =>
  outAt m c (⟨(i 0).val, (i 0).isLt⟩ : Fin 14400) (⟨(i 1).val, (i 1).isLt⟩ : Fin 1024)

/-- What grid point `t` writes back is block `t` of that array. -/
theorem flushed6_eq (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after0_6]
  unfold out0_6
  rw [View.canon_unit_zero hz]
  funext j
  obtain ⟨p, q, rfl⟩ : ∃ (p : Fin 1440) (q : Fin 1024), j = ix2 p q := ⟨j 0, j 1, eq_ix2 j⟩
  obtain ⟨-, -, -, -, -, -, -, -, -, -, -, -, e0, e1⟩ := idx_facts t
  have hemb : ((cfg0.win 6).blk t).view.emb (ix2 p q)
      = ix2 (⟨t.val * 1440 + p.val, by have := t_lt t; have := p.isLt; omega⟩ : Fin 14400) q := by
    funext a; apply Fin.ext
    match a with
    | ⟨0, _⟩ => show win0_6.index t (0 : Fin 2) * 1440 + 1 * p.val = t.val * 1440 + p.val; omega
    | ⟨1, _⟩ => show win0_6.index t (1 : Fin 2) * 1024 + 1 * q.val = q.val; omega
  show bodyVal (F := Ideal) (iblk m c 0 t) (iblk m c 1 t) (iblk m c 2 t) (iblk m c 3 t) (iblk m c 4 t) (iblk m c 5 t) (ix2 p q)
      = outArr m c (((cfg0.win 6).blk t).view.emb (ix2 p q))
  rw [hemb]
  refine (bodyVal_apply (iblk m c 0 t) (iblk m c 1 t) (iblk m c 2 t) (iblk m c 3 t) (iblk m c 4 t) (iblk m c 5 t) p q).trans ?_
  have h0 := funext (fun k : Fin 91 => iblk0_apply m c t p k)
  have h1 := funext (fun k : Fin 4 => iblk1_apply m c t p k)
  have h2 := funext (fun k : Fin 4 => iblk2_apply m c t k q)
  have h3 := funext (fun k : Fin 4 => iblk3_apply m c t k q)
  have h4 := iblk4_apply m c t q
  have h5 := funext (fun k : Fin 91 => iblk5_apply m c t k q)
  rw [h0, h1, h2, h3, h4, h5]
  rfl

/-- An index of the output array is in point `t`'s block iff each coordinate is in the block's range on its axis. -/
theorem mem_blk6 (t : Fin cfg0.N) (i : S14400x1024.Idx) :
    i ∈ ((cfg0.win 6).blk t).view.set ↔ ∀ a : Fin 2, win0_6.index t a * S1440x1024.size a ≤ (i a).val ∧ (i a).val < win0_6.index t a * S1440x1024.size a + S1440x1024.size a := by
  show i ∈ ((View.whole main_v47).slice (win0_6.rect t)).set ↔ _
  rw [View.set_slice_whole, Rect.mem_set_unit]
  exact Iff.rfl

/-- Every row is in the block of the point its index divided by 1440 names. -/
theorem cover6 (i : S14400x1024.Idx) :
    ∃ t : Fin cfg0.N, (cfg0.win 6).flush t = true ∧ i ∈ ((cfg0.win 6).blk t).view.set := by
  have hi0 : (i 0).val < 14400 := (i 0).isLt
  have hi1 : (i 1).val < 1024 := (i 1).isLt
  obtain ⟨t, ht⟩ : ∃ t : Fin cfg0.N, t.val = (i 0).val / 1440 :=
    ⟨⟨(i 0).val / 1440, by have e : cfg0.N = 10 := N_0; omega⟩, rfl⟩
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 1440 ≤ (i 0).val ∧ (i 0).val < win0_6.index t (0 : Fin 2) * 1440 + 1440; omega
  | ⟨1, _⟩ => show win0_6.index t (1 : Fin 2) * 1024 ≤ (i 1).val ∧ (i 1).val < win0_6.index t (1 : Fin 2) * 1024 + 1024; omega

/-- The output array after the region. -/
theorem final6 (c : Dev nD) : (dats m 0 c).arrAt 6 cfg0.N = outArr m c :=
  (dats m 0 c).arrAt_eq_of_cover 6 (outArr m c) (fun t _ => flushed6_eq m c t) (cover6)

/-! ## The returned array -/

/-- Entry `(b, q, j)` of the returned array: the cost of prediction `900 b + q` against ground truth `j`. -/
def resK (c : Dev nD) : S16x900x1000.Idx → EReal := fun i =>
  outAt m c
    (⟨(i 0).val * 900 + (i 1).val, by
      have h0 : (i 0).val < 16 := (i 0).isLt
      have h1 : (i 1).val < 900 := (i 1).isLt
      omega⟩ : Fin 14400)
    (⟨(i 2).val, by have h2 : (i 2).val < 1000 := (i 2).isLt; omega⟩ : Fin 1024)

end Cert.KernelIdeal.Hand

end
-- ==== Proof.KIResult.lean ====
/- The kernel program's run, read: it returns the array of pair costs and leaves its arguments as they were.
   After the region the output array is the cost of every (prediction, staged column) pair. The first line after the
   region keeps columns 0 … 999, the second splits row n into (n / 900, n % 900): entry (b, q, j) of the result is row
   900 b + q, column j. No line after the region writes an argument. -/
import proofs.«412066_j62371515072731_3_alg».proof.Proof.KIValue

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- What the two lines after the region leave in the result buffer. -/
theorem tail_eq (c : Dev nD) :
    Pipeline.afterTail₀ cfgs (dats m) 0 (V0 m) [hostOps1] c main_v49 = resK m c := by
  unfold Pipeline.afterTail₀
  show StableHlo.after hostOps1 _ (Proc.devRef .tc main_v49) = _
  after_results
  have hA : Pipeline.withArrays (cfgs 0).spec c (V0 m c) (fun w => (dats m 0 c).arrAt w (cfgs 0).N) (Proc.devRef .tc main_v47)
      = outArr m c :=
    (Pipeline.withArrays_arr spec0 launch0.win.arr_inj c _ _ 6).trans (final6 m c)
  rw [hA]
  funext i
  obtain ⟨b, q, j, rfl⟩ : ∃ (b : Fin 16) (q : Fin 900) (j : Fin 1000), i = ix3 b q j := ⟨i 0, i 1, i 2, eq_ix3 i⟩
  have hb : b.val < 16 := b.isLt
  have hq : q.val < 900 := q.isLt
  have hj : j.val < 1000 := j.isLt
  show shapeCast S16x900x1000
      (extractStridedSlice S14400x1000 ![0, 0] (outArr m c) slices_S14400x1024_S14400x1000_0_0)
      shapeCasts_S14400x1000_S16x900x1000 (ix3 b q j) = _
  rw [shapeCast_apply _ shapeCasts_S14400x1000_S16x900x1000 (ix3 b q j)
      (ix2 (⟨b.val * 900 + q.val, by omega⟩ : Fin 14400) j)
      (by rewrite [Shape.rowMajor_val_two, Shape.rowMajor_val_three]; rfl)]
  rw [extractStridedSlice_apply ![0, 0] (outArr m c) slices_S14400x1024_S14400x1000_0_0
      (ix2 (⟨b.val * 900 + q.val, by omega⟩ : Fin 14400) j)
      (ix2 (⟨b.val * 900 + q.val, by omega⟩ : Fin 14400) (⟨j.val, by omega⟩ : Fin 1024))
      (fun a => match a with
        | ⟨0, _⟩ => by show b.val * 900 + q.val = 0 + (b.val * 900 + q.val); omega
        | ⟨1, _⟩ => by show j.val = 0 + j.val; omega)]
  rfl

/-- Every weakly fair execution of the kernel program ends with the result buffer at the array of pair costs and the
    four arguments unchanged. -/
theorem run_value : θ_run defs (onTc (τ := τ) (main (F := Ideal))) ⟨m, fun _ => 0, ρ⟩ (fun r => ∀ c : Dev nD,
      r.2.mem ((c.tc : Thread nD τ).loc main_v49) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v49 (Pipeline.mem_restRefs_of main_v49 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Hand

end
-- ==== Proof.RefImports.lean ====
/- The reference's run and its read-at-an-index lemmas, brought in for the modules that bridge the two programs. -/
import proofs.«412066_j62371515072731_3_alg».proof.Proof.Gen.ReferenceIdeal.Run
import proofs.«412066_j62371515072731_3_alg».proof.Proof.Gen.ReferenceIdeal.Read
-- ==== Proof.LibColGather.lean ====
/-
  Reading a column gather and a four-column join at an index.
  A column gather takes, for every `t`, the column `idx[t]` of a two-axis operand, whole: the start index is read signed
  and clamped into the operand's columns, so result entry `(n, t)` is the operand's entry in row `n` at that column.
  Four one-column arrays joined along the column axis give a four-column array whose column `k` is array `k`.
  Beside them: an index is determined by its coordinates, and a small natural number written as a 32-bit word is
  non-negative as a signed number and reads back as itself.
-/
import Idealize.ShloMosaic.PureOps.Ideal
import Idealize.ShloMosaic.Lib.ValueIdx
import Idealize.ShloMosaic.Lib.Pipeline.Value

noncomputable section

namespace Cert.LibColGather

open Idealize.ShloMosaic Idealize.ShloMosaic.ValueIdx

/-! ## Two indices are equal when their coordinates are -/

/-- Two rank-1 indices with the same coordinate are equal. -/
theorem ext1 {n0 : Nat} {i i' : (⟨1, ![n0]⟩ : Shape).Idx} (h0 : (i 0).val = (i' 0).val) : i = i' := by
  funext a
  match a with
  | ⟨0, _⟩ => exact Fin.ext h0

/-- Two rank-2 indices with the same two coordinates are equal. -/
theorem ext2 {n0 n1 : Nat} {i i' : (⟨2, ![n0, n1]⟩ : Shape).Idx} (h0 : (i 0).val = (i' 0).val)
    (h1 : (i 1).val = (i' 1).val) : i = i' := by
  funext a
  match a with
  | ⟨0, _⟩ => exact Fin.ext h0
  | ⟨1, _⟩ => exact Fin.ext h1

/-- Two rank-3 indices with the same three coordinates are equal. -/
theorem ext3 {n0 n1 n2 : Nat} {i i' : (⟨3, ![n0, n1, n2]⟩ : Shape).Idx} (h0 : (i 0).val = (i' 0).val)
    (h1 : (i 1).val = (i' 1).val) (h2 : (i 2).val = (i' 2).val) : i = i' := by
  funext a
  match a with
  | ⟨0, _⟩ => exact Fin.ext h0
  | ⟨1, _⟩ => exact Fin.ext h1
  | ⟨2, _⟩ => exact Fin.ext h2

/-! ## A gather along the column axis, read at an index

Operand `[N, C]`, start indices `[T, 1]`, result `[N, T]`: result entry `(n, t)` is the operand's entry in row `n` at the
column the start index `idx[t, 0]` names, read signed and clamped into `[0, C − 1]`. -/

/-- The dimension numbers of a column gather: the row axis is the result's one offset axis and is taken whole, the column
    axis is collapsed and is the one the start index names. -/
abbrev colGatherDims (N C T : Nat)
    (wf : GatherDims.WF ⟨2, ![N, C]⟩ ⟨2, ![T, 1]⟩ ⟨2, ![N, T]⟩ [0] [1] [] [1] [] 1 ![N, 1]) :
    GatherDims ⟨2, ![N, C]⟩ ⟨2, ![T, 1]⟩ ⟨2, ![N, T]⟩ where
  offsetDims := [0]
  collapsedSliceDims := [1]
  operandBatchingDims := []
  startIndicesBatchingDims := []
  startIndexMap := [1]
  indexVectorDim := 1
  sliceSizes := ![N, 1]
  wf := wf

section Gather
variable {N C T w : Nat}
  (wf : GatherDims.WF ⟨2, ![N, C]⟩ ⟨2, ![T, 1]⟩ ⟨2, ![N, T]⟩ [0] [1] [] [1] [] 1 ![N, 1])

/-- Result position `(n, t)` reads its start index at `(t, 0)`: the result's one batch axis (axis 1) supplies the
    indices' axis 0, and the index vector (axis 1, of extent 1) has only the component `0`. -/
theorem colGather_siIdx (n : Fin N) (t : Fin T) (c : Fin (colGatherDims N C T wf).startIndexMap.length) :
    (colGatherDims N C T wf).siIdx (ix2 n t) c = ix2 t (0 : Fin 1) := by
  funext b
  refine Fin.ext ?_
  match b with
  | ⟨0, _⟩ => rfl
  | ⟨1, _⟩ =>
    have hc : c.val < 1 := c.isLt
    show c.val = 0
    omega

/-- On the column axis the slice starts at the start index read signed and clamped into `[0, C - 1]`: the axis is the one
    the start index map names, and the slice there has one column. -/
theorem colGather_col_start (idx : IVec ⟨2, ![T, 1]⟩ w) (n : Fin N) (t : Fin T) :
    (colGatherDims N C T wf).start (ix2 n t) idx 1 = min (idx (ix2 t (0 : Fin 1))).toInt.toNat (C - 1) := by
  unfold GatherDims.start
  rw [dif_pos (show (1 : Fin 2) ∈ (colGatherDims N C T wf).startIndexMap from List.mem_singleton.mpr rfl),
    colGather_siIdx]
  rfl

/-- The column axis is collapsed, so the result gives it no offset. -/
theorem colGather_col_off (n : Fin N) (t : Fin T) : (colGatherDims N C T wf).offCoord (ix2 n t) 1 = 0 :=
  GatherDims.offCoord_eq_zero _ _ _ (fun h => ((GatherDims.mem_sKept _ _).mp h).1 (List.mem_singleton.mpr rfl))

/-- The row axis is not named by the start index map: its slice starts at `0`. -/
theorem colGather_row_start (idx : IVec ⟨2, ![T, 1]⟩ w) (n : Fin N) (t : Fin T) :
    (colGatherDims N C T wf).start (ix2 n t) idx 0 = 0 := by
  unfold GatherDims.start
  rw [dif_neg]
  intro h
  exact absurd (congrArg Fin.val (List.mem_singleton.mp h)) Nat.zero_ne_one

/-- The row axis is the operand's one kept axis, read by the result's one offset axis (axis 0): the offset is `n`. -/
theorem colGather_row_off (n : Fin N) (t : Fin T) :
    (colGatherDims N C T wf).offCoord (ix2 n t) 0 = n.val := rfl

end Gather

/-- THE COLUMN GATHER READ AT `(n, t)`: the operand in row `n` at column `idx[t, 0]` (read signed, clamped into
    `[0, C − 1]`). -/
theorem colGather_apply {α : Type} {N C T w : Nat} (hC : 0 < C)
    (wf : GatherDims.WF ⟨2, ![N, C]⟩ ⟨2, ![T, 1]⟩ ⟨2, ![N, T]⟩ [0] [1] [] [1] [] 1 ![N, 1])
    (x : (⟨2, ![N, C]⟩ : Shape).Idx → α) (idx : IVec ⟨2, ![T, 1]⟩ w) (n : Fin N) (t : Fin T) :
    Host.gather (colGatherDims N C T wf) x idx (ix2 n t)
      = x (ix2 n (⟨min (idx (ix2 t (0 : Fin 1))).toInt.toNat (C - 1), by omega⟩ : Fin C)) := by
  -- the operand position's coordinate on each axis is slice start + batching coordinate + offset;
  -- there is no batching axis, so the middle term is 0 on both axes
  have hb : ∀ a, (colGatherDims N C T wf).batchCoord (ix2 n t) a = 0 :=
    fun a => GatherDims.batchCoord_eq_zero _ _ a List.not_mem_nil
  unfold Host.gather
  congr 1
  funext a
  refine Fin.ext ?_
  match a with
  | ⟨0, _⟩ =>
    -- row axis: 0 + 0 + n
    show (colGatherDims N C T wf).start (ix2 n t) idx 0 + (colGatherDims N C T wf).batchCoord (ix2 n t) 0
        + (colGatherDims N C T wf).offCoord (ix2 n t) 0 = n.val
    rw [hb, colGather_row_off, colGather_row_start]
    omega
  | ⟨1, _⟩ =>
    -- column axis: clamped start index + 0 + 0
    show (colGatherDims N C T wf).start (ix2 n t) idx 1 + (colGatherDims N C T wf).batchCoord (ix2 n t) 1
        + (colGatherDims N C T wf).offCoord (ix2 n t) 1 = min (idx (ix2 t (0 : Fin 1))).toInt.toNat (C - 1)
    rw [hb, colGather_col_off, colGather_col_start]
    rfl

/-- A natural number below `2 ^ 31` written as a 32-bit word reads back, signed, as itself. -/
theorem toInt_ofNat_small (l : Nat) (hl : l < 2147483648) : (BitVec.ofNat 32 l).toInt = (l : Int) := by
  rw [BitVec.toInt_eq_toNat_of_lt (by rw [BitVec.toNat_ofNat, Nat.mod_eq_of_lt (by omega)]; omega),
    BitVec.toNat_ofNat, Nat.mod_eq_of_lt (by omega)]

/-- Such a word is not below zero as a signed number. -/
theorem slt_zero_ofNat_small (l : Nat) (hl : l < 2147483648) : IntOp.cmpi .slt (BitVec.ofNat 32 l) 0#32 = 0#1 := by
  show BitVec.ofBool ((BitVec.ofNat 32 l).slt 0#32) = 0#1
  rw [BitVec.slt_eq_decide, toInt_ofNat_small l hl, BitVec.toInt_zero, decide_eq_false (by omega)]
  rfl

/-! ## Four one-column arrays joined along the column axis, read at an index -/

/-- Column `k` of the join is array `k`, at its only column. -/
theorem concat4_apply {α : Type} {N : Nat} (f0 f1 f2 f3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1)
    (n : Fin N) (k : Fin 4) :
    concatenate (⟨2, ![N, 4]⟩ : Shape) 1 [⟨⟨2, ![N, 1]⟩, f0⟩, ⟨⟨2, ![N, 1]⟩, f1⟩, ⟨⟨2, ![N, 1]⟩, f2⟩, ⟨⟨2, ![N, 1]⟩, f3⟩] h (ix2 n k)
      = (![f0, f1, f2, f3] k) (ix2 n (0 : Fin 1)) := by
  -- off the joined axis (the row axis) the piece is read at the same coordinate
  have hi : ∀ (k : Fin 4) (b : Fin (⟨2, ![N, 1]⟩ : Shape).rank), b.cast (rfl : (⟨2, ![N, 1]⟩ : Shape).rank = (⟨2, ![N, 4]⟩ : Shape).rank) ≠ (1 : Fin 2) →
      ((ix2 n (0 : Fin 1) : (⟨2, ![N, 1]⟩ : Shape).Idx) b).val = ((ix2 n k : (⟨2, ![N, 4]⟩ : Shape).Idx) (b.cast rfl)).val := by
    intro k b hb
    match b with
    | ⟨0, _⟩ => rfl
    | ⟨1, _⟩ => exact absurd rfl hb
  -- piece k spans column k alone: the k pieces before it have one column each
  match k with
  | ⟨0, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨0, hk⟩) 0 (show 0 < 4 by omega)
      ⟨2, ![N, 1]⟩ f0 rfl rfl 0 rfl (ix2 n (0 : Fin 1)) (hi _) rfl
  | ⟨1, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨1, hk⟩) 1 (show 1 < 4 by omega)
      ⟨2, ![N, 1]⟩ f1 rfl rfl 1 rfl (ix2 n (0 : Fin 1)) (hi _) rfl
  | ⟨2, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨2, hk⟩) 2 (show 2 < 4 by omega)
      ⟨2, ![N, 1]⟩ f2 rfl rfl 2 rfl (ix2 n (0 : Fin 1)) (hi _) rfl
  | ⟨3, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨3, hk⟩) 3 (show 3 < 4 by omega)
      ⟨2, ![N, 1]⟩ f3 rfl rfl 3 rfl (ix2 n (0 : Fin 1)) (hi _) rfl

end Cert.LibColGather

end
-- ==== Proof.RefValue.lean ====
/- The reference's result at one entry is the reference's cost of one pair.
   Entry (b, q, j) of the result is computed from prediction (b, q)'s logits and box, ground-truth box j and label j.
   The gather along the class axis reads the label's column when the label is the word of a class index below 91
   (a non-negative word is left as it is, and an index below 91 is not clamped). -/
import proofs.«412066_j62371515072731_3_alg».proof.Proof.RefImports
import proofs.«412066_j62371515072731_3_alg».proof.Proof.Spec
import proofs.«412066_j62371515072731_3_alg».proof.Proof.LibColGather
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen Cert.ReferenceIdeal.Read
open Cert.LibColGather

/-! ## The rows of the flattened prediction arrays -/

/-- Prediction `(b, q)` is row `b · 900 + q` of the flattened arrays. -/
abbrev row (b : Fin 16) (q : Fin 900) : Fin 14400 := ⟨b.val * 900 + q.val, by omega⟩

section Focal
variable (x0 : (⟨S16x900x91, .f32⟩ : BufTy).Contents (Elt Ideal))

/-- Entry `(b · 900 + q, k)` of the flattened logits is logit `(b, q, k)`. -/
theorem v0_at (b : Fin 16) (q : Fin 900) (k : Fin 91) :
    val_main_v0 (F := Ideal) x0 (ix2 (row b q) k) = (x0 : S16x900x91.Idx → EReal) (ix3 b q k) := by
  rw [val_main_v0_apply]
  exact congrArg (x0 : S16x900x91.Idx → EReal) (ext3
    (by show ((b.val * 900 + q.val) * 91 + k.val) / 81900 = b.val; omega)
    (by show ((b.val * 900 + q.val) * 91 + k.val) / 91 % 900 = q.val; omega)
    (by show ((b.val * 900 + q.val) * 91 + k.val) % 91 = k.val; omega))

/-- The sigmoid array at an entry is the sigmoid of the logit. -/
theorem sig_at (b : Fin 16) (q : Fin 900) (k : Fin 91) :
    val_main_v6 (F := Ideal) x0 (ix2 (row b q) k) = Spec.sigR ((x0 : S16x900x91.Idx → EReal) (ix3 b q k)) := by
  rw [val_main_v6_apply, val_main_v5_apply, val_main_cst_0_apply, val_main_v4_apply, val_main_v3_apply,
    val_main_cst_apply, val_main_v2_apply, val_main_v1_apply, v0_at]
  rfl

/-- The focal matrix at an entry is the focal cost of the logit. -/
theorem focal_at (b : Fin 16) (q : Fin 900) (k : Fin 91) :
    val_main_v30 (F := Ideal) x0 (ix2 (row b q) k) = Spec.focalR ((x0 : S16x900x91.Idx → EReal) (ix3 b q k)) := by
  rw [val_main_v30_apply, val_main_v29_apply, val_main_v24_apply, val_main_v23_apply, val_main_cst_7_apply,
    val_main_v22_apply, val_main_v20_apply, val_main_v19_apply, val_main_cst_5_apply, val_main_v21_apply,
    val_main_cst_6_apply, val_main_v28_apply, val_main_v27_apply, val_main_v26_apply, val_main_v25_apply,
    val_main_cst_8_apply, val_main_v18_apply, val_main_v11_apply, val_main_v10_apply, val_main_cst_2_apply,
    val_main_v9_apply, val_main_v8_apply, val_main_cst_1_apply, val_main_v17_apply, val_main_v16_apply,
    val_main_v15_apply, val_main_v13_apply, val_main_v12_apply, val_main_cst_3_apply, val_main_v14_apply,
    val_main_cst_4_apply, sig_at]
  rfl

end Focal

section Label
variable (x0 : (⟨S16x900x91, .f32⟩ : BufTy).Contents (Elt Ideal)) (x3 : (⟨S1000, .i32⟩ : BufTy).Contents (Elt Ideal))

/-- A label that is the word of a class index is not below zero, so the wrap-around select leaves it as it is. -/
theorem label_at (j : Fin 1000) (l : Fin 91) (hl : (x3 : S1000.Idx → BitVec 32) (ix1 j) = BitVec.ofNat 32 l.val) :
    val_main_v36 (F := Ideal) x3 (ix2 j (0 : Fin 1)) = BitVec.ofNat 32 l.val := by
  have e : idx_main_v36 (ix2 j (0 : Fin 1)) = ix1 j := ext1 rfl
  rw [val_main_v36_apply, e, val_main_v35_apply, val_main_v32_apply, hl, val_main_v31_apply, val_main_c_apply,
    slt_zero_ofNat_small l.val (by have := l.isLt; omega), select_zero]

/-- The gathered entry `(n, j)` is the focal matrix's entry at row `n` and the label's column: the class index is
    at most 90, so the clamp into the 91 columns leaves it as it is. -/
theorem gather_at (n : Fin 14400) (j : Fin 1000) (l : Fin 91)
    (hl : (x3 : S1000.Idx → BitVec 32) (ix1 j) = BitVec.ofNat 32 l.val) :
    val_main_v37 (F := Ideal) x0 x3 (ix2 n j) = val_main_v30 (F := Ideal) x0 (ix2 n l) := by
  unfold val_main_v37
  show Host.gather (colGatherDims 14400 91 1000 gather_S14400x91_S1000x1_S14400x1000_0_1_n_n_1_1_144001_wf)
    (val_main_v30 (F := Ideal) x0) (val_main_v36 (F := Ideal) x3) (ix2 n j) = _
  rw [colGather_apply (by omega)]
  refine congrArg (val_main_v30 (F := Ideal) x0) (ext2 rfl ?_)
  show min (val_main_v36 (F := Ideal) x3 (ix2 j (0 : Fin 1))).toInt.toNat (91 - 1) = l.val
  rw [label_at x3 j l hl, toInt_ofNat_small l.val (by have := l.isLt; omega), Int.toNat_natCast]
  have := l.isLt
  omega

end Label

/-! ## The box terms -/

section Boxes
variable (x1 : (⟨S16x900x4, .f32⟩ : BufTy).Contents (Elt Ideal)) (x2 : (⟨S1000x4, .f32⟩ : BufTy).Contents (Elt Ideal))

/-- Row `n` of the flattened predicted boxes, as (cx, cy, w, h). -/
abbrev pbox (n : Fin 14400) : Fin 4 → EReal := fun k => val_main_v7 (F := Ideal) x1 (ix2 n k)
/-- Ground-truth box `j`, as (cx, cy, w, h). -/
abbrev gbox (j : Fin 1000) : Fin 4 → EReal := fun k => (x2 : S1000x4.Idx → EReal) (ix2 j k)

/-- Entry `(b · 900 + q, k)` of the flattened predicted boxes is coordinate `k` of box `(b, q)`. -/
theorem v7_at (b : Fin 16) (q : Fin 900) (k : Fin 4) :
    val_main_v7 (F := Ideal) x1 (ix2 (row b q) k) = (x1 : S16x900x4.Idx → EReal) (ix3 b q k) := by
  rw [val_main_v7_apply]
  exact congrArg (x1 : S16x900x4.Idx → EReal) (ext3
    (by show ((b.val * 900 + q.val) * 4 + k.val) / 3600 = b.val; omega)
    (by show ((b.val * 900 + q.val) * 4 + k.val) / 4 % 900 = q.val; omega)
    (by show ((b.val * 900 + q.val) * 4 + k.val) % 4 = k.val; omega))

/-! ### The L1 distance -/

/-- One coordinate's absolute difference. -/
theorem abs_at (n : Fin 14400) (j : Fin 1000) (k : Fin 4) :
    val_main_v43 (F := Ideal) x1 x2 (ix3 n j k)
      = max (pbox x1 n k - gbox x2 j k) (-(pbox x1 n k - gbox x2 j k)) := by
  have e40 : idx_main_v38 (idx_main_v40 (ix3 n j k)) = ix2 n k := ext2 rfl rfl
  have e41 : idx_main_v39 (idx_main_v41 (ix3 n j k)) = ix2 j k := ext2 rfl rfl
  rw [val_main_v43_apply, val_main_v42_apply, val_main_v40_apply, val_main_v38_apply, e40,
    val_main_v41_apply, val_main_v39_apply, e41]
  rfl

/-- The sum over the four coordinates. -/
theorem l1_at (n : Fin 14400) (j : Fin 1000) :
    val_main_v44 (F := Ideal) x1 x2 (ix2 n j) = Spec.l1R (pbox x1 n) (gbox x2 j) := by
  rw [val_main_v44_apply, val_main_cst_10_apply]
  refine congrArg (Spec.c0 + ·) (Finset.sum_congr rfl fun k _ => ?_)
  have e : idx_main_v44 (ix2 n j) k = ix3 n j k := ext3 rfl rfl rfl
  exact (congrArg (val_main_v43 (F := Ideal) x1 x2) e).trans (abs_at x1 x2 n j k)

/-! ### The corners of the predicted boxes -/

theorem v46_at (n : Fin 14400) : val_main_v46 (F := Ideal) x1 (ix1 n) = pbox x1 n 0 := by
  rw [val_main_v46_apply, val_main_v45_apply]
  exact congrArg (val_main_v7 (F := Ideal) x1) (ext2 (Nat.div_one _) rfl)
theorem v48_at (n : Fin 14400) : val_main_v48 (F := Ideal) x1 (ix1 n) = pbox x1 n 1 := by
  rw [val_main_v48_apply, val_main_v47_apply]
  exact congrArg (val_main_v7 (F := Ideal) x1) (ext2 (Nat.div_one _) rfl)
theorem v50_at (n : Fin 14400) : val_main_v50 (F := Ideal) x1 (ix1 n) = pbox x1 n 2 := by
  rw [val_main_v50_apply, val_main_v49_apply]
  exact congrArg (val_main_v7 (F := Ideal) x1) (ext2 (Nat.div_one _) rfl)
theorem v52_at (n : Fin 14400) : val_main_v52 (F := Ideal) x1 (ix1 n) = pbox x1 n 3 := by
  rw [val_main_v52_apply, val_main_v51_apply]
  exact congrArg (val_main_v7 (F := Ideal) x1) (ext2 (Nat.div_one _) rfl)

theorem v55_at (n : Fin 14400) :
    val_main_v55 (F := Ideal) x1 (ix1 n) = pbox x1 n 0 - Spec.chalf * pbox x1 n 2 := by
  rw [val_main_v55_apply, v46_at, val_main_v54_apply, val_main_v53_apply, val_main_cst_11_apply, v50_at]
  rfl
theorem v58_at (n : Fin 14400) :
    val_main_v58 (F := Ideal) x1 (ix1 n) = pbox x1 n 1 - Spec.chalf * pbox x1 n 3 := by
  rw [val_main_v58_apply, v48_at, val_main_v57_apply, val_main_v56_apply, val_main_cst_12_apply, v52_at]
  rfl
theorem v61_at (n : Fin 14400) :
    val_main_v61 (F := Ideal) x1 (ix1 n) = pbox x1 n 0 + Spec.chalf * pbox x1 n 2 := by
  rw [val_main_v61_apply, v46_at, val_main_v60_apply, val_main_v59_apply, val_main_cst_13_apply, v50_at]
  rfl
theorem v64_at (n : Fin 14400) :
    val_main_v64 (F := Ideal) x1 (ix1 n) = pbox x1 n 1 + Spec.chalf * pbox x1 n 3 := by
  rw [val_main_v64_apply, v48_at, val_main_v63_apply, val_main_v62_apply, val_main_cst_14_apply, v52_at]
  rfl

/-- The predicted corner table at `(n, k)` is corner `k` of box `n`. -/
theorem pcorner_at (n : Fin 14400) (k : Fin 4) :
    val_main_v69 (F := Ideal) x1 (ix2 n k) = Spec.corners (pbox x1 n) k := by
  unfold val_main_v69
  refine (concat4_apply _ _ _ _ _ n k).trans ?_
  match k with
  | ⟨0, _⟩ =>
    show val_main_v65 (F := Ideal) x1 (ix2 n (0 : Fin 1)) = pbox x1 n 0 - Spec.chalf * pbox x1 n 2
    rw [val_main_v65_apply, show idx_main_v65 (ix2 n (0 : Fin 1)) = ix1 n from ext1 rfl, v55_at]
  | ⟨1, _⟩ =>
    show val_main_v66 (F := Ideal) x1 (ix2 n (0 : Fin 1)) = pbox x1 n 1 - Spec.chalf * pbox x1 n 3
    rw [val_main_v66_apply, show idx_main_v66 (ix2 n (0 : Fin 1)) = ix1 n from ext1 rfl, v58_at]
  | ⟨2, _⟩ =>
    show val_main_v67 (F := Ideal) x1 (ix2 n (0 : Fin 1)) = pbox x1 n 0 + Spec.chalf * pbox x1 n 2
    rw [val_main_v67_apply, show idx_main_v67 (ix2 n (0 : Fin 1)) = ix1 n from ext1 rfl, v61_at]
  | ⟨3, _⟩ =>
    show val_main_v68 (F := Ideal) x1 (ix2 n (0 : Fin 1)) = pbox x1 n 1 + Spec.chalf * pbox x1 n 3
    rw [val_main_v68_apply, show idx_main_v68 (ix2 n (0 : Fin 1)) = ix1 n from ext1 rfl, v64_at]

/-! ### The corners of the ground-truth boxes -/

theorem v71_at (j : Fin 1000) : val_main_v71 (F := Ideal) x2 (ix1 j) = gbox x2 j 0 := by
  rw [val_main_v71_apply, val_main_v70_apply]
  exact congrArg (x2 : S1000x4.Idx → EReal) (ext2 (Nat.div_one _) rfl)
theorem v73_at (j : Fin 1000) : val_main_v73 (F := Ideal) x2 (ix1 j) = gbox x2 j 1 := by
  rw [val_main_v73_apply, val_main_v72_apply]
  exact congrArg (x2 : S1000x4.Idx → EReal) (ext2 (Nat.div_one _) rfl)
theorem v75_at (j : Fin 1000) : val_main_v75 (F := Ideal) x2 (ix1 j) = gbox x2 j 2 := by
  rw [val_main_v75_apply, val_main_v74_apply]
  exact congrArg (x2 : S1000x4.Idx → EReal) (ext2 (Nat.div_one _) rfl)
theorem v77_at (j : Fin 1000) : val_main_v77 (F := Ideal) x2 (ix1 j) = gbox x2 j 3 := by
  rw [val_main_v77_apply, val_main_v76_apply]
  exact congrArg (x2 : S1000x4.Idx → EReal) (ext2 (Nat.div_one _) rfl)

theorem v80_at (j : Fin 1000) :
    val_main_v80 (F := Ideal) x2 (ix1 j) = gbox x2 j 0 - Spec.chalf * gbox x2 j 2 := by
  rw [val_main_v80_apply, v71_at, val_main_v79_apply, val_main_v78_apply, val_main_cst_15_apply, v75_at]
  rfl
theorem v83_at (j : Fin 1000) :
    val_main_v83 (F := Ideal) x2 (ix1 j) = gbox x2 j 1 - Spec.chalf * gbox x2 j 3 := by
  rw [val_main_v83_apply, v73_at, val_main_v82_apply, val_main_v81_apply, val_main_cst_16_apply, v77_at]
  rfl
theorem v86_at (j : Fin 1000) :
    val_main_v86 (F := Ideal) x2 (ix1 j) = gbox x2 j 0 + Spec.chalf * gbox x2 j 2 := by
  rw [val_main_v86_apply, v71_at, val_main_v85_apply, val_main_v84_apply, val_main_cst_17_apply, v75_at]
  rfl
theorem v89_at (j : Fin 1000) :
    val_main_v89 (F := Ideal) x2 (ix1 j) = gbox x2 j 1 + Spec.chalf * gbox x2 j 3 := by
  rw [val_main_v89_apply, v73_at, val_main_v88_apply, val_main_v87_apply, val_main_cst_18_apply, v77_at]
  rfl

/-- The ground-truth corner table at `(j, k)` is corner `k` of box `j`. -/
theorem gcorner_at (j : Fin 1000) (k : Fin 4) :
    val_main_v94 (F := Ideal) x2 (ix2 j k) = Spec.corners (gbox x2 j) k := by
  unfold val_main_v94
  refine (concat4_apply _ _ _ _ _ j k).trans ?_
  match k with
  | ⟨0, _⟩ =>
    show val_main_v90 (F := Ideal) x2 (ix2 j (0 : Fin 1)) = gbox x2 j 0 - Spec.chalf * gbox x2 j 2
    rw [val_main_v90_apply, show idx_main_v90 (ix2 j (0 : Fin 1)) = ix1 j from ext1 rfl, v80_at]
  | ⟨1, _⟩ =>
    show val_main_v91 (F := Ideal) x2 (ix2 j (0 : Fin 1)) = gbox x2 j 1 - Spec.chalf * gbox x2 j 3
    rw [val_main_v91_apply, show idx_main_v91 (ix2 j (0 : Fin 1)) = ix1 j from ext1 rfl, v83_at]
  | ⟨2, _⟩ =>
    show val_main_v92 (F := Ideal) x2 (ix2 j (0 : Fin 1)) = gbox x2 j 0 + Spec.chalf * gbox x2 j 2
    rw [val_main_v92_apply, show idx_main_v92 (ix2 j (0 : Fin 1)) = ix1 j from ext1 rfl, v86_at]
  | ⟨3, _⟩ =>
    show val_main_v93 (F := Ideal) x2 (ix2 j (0 : Fin 1)) = gbox x2 j 1 + Spec.chalf * gbox x2 j 3
    rw [val_main_v93_apply, show idx_main_v93 (ix2 j (0 : Fin 1)) = ix1 j from ext1 rfl, v89_at]

/-! ### The areas -/

/-- A one-column slice of the predicted corner table, flattened, at `n`: the table at `(n, c)`. -/
theorem v96_at (n : Fin 14400) : val_main_v96 (F := Ideal) x1 (ix1 n) = Spec.corners (pbox x1 n) 2 := by
  rw [val_main_v96_apply, val_main_v95_apply, ← pcorner_at]
  exact congrArg (val_main_v69 (F := Ideal) x1) (ext2 (Nat.div_one _) rfl)
theorem v98_at (n : Fin 14400) : val_main_v98 (F := Ideal) x1 (ix1 n) = Spec.corners (pbox x1 n) 0 := by
  rw [val_main_v98_apply, val_main_v97_apply, ← pcorner_at]
  exact congrArg (val_main_v69 (F := Ideal) x1) (ext2 (Nat.div_one _) rfl)
theorem v101_at (n : Fin 14400) : val_main_v101 (F := Ideal) x1 (ix1 n) = Spec.corners (pbox x1 n) 3 := by
  rw [val_main_v101_apply, val_main_v100_apply, ← pcorner_at]
  exact congrArg (val_main_v69 (F := Ideal) x1) (ext2 (Nat.div_one _) rfl)
theorem v103_at (n : Fin 14400) : val_main_v103 (F := Ideal) x1 (ix1 n) = Spec.corners (pbox x1 n) 1 := by
  rw [val_main_v103_apply, val_main_v102_apply, ← pcorner_at]
  exact congrArg (val_main_v69 (F := Ideal) x1) (ext2 (Nat.div_one _) rfl)

/-- The predicted boxes' areas. -/
theorem parea_at (n : Fin 14400) :
    val_main_v105 (F := Ideal) x1 (ix1 n) = Spec.area (Spec.corners (pbox x1 n)) := by
  rw [val_main_v105_apply, val_main_v99_apply, val_main_v104_apply, v96_at, v98_at, v101_at, v103_at]
  rfl

theorem v107_at (j : Fin 1000) : val_main_v107 (F := Ideal) x2 (ix1 j) = Spec.corners (gbox x2 j) 2 := by
  rw [val_main_v107_apply, val_main_v106_apply, ← gcorner_at]
  exact congrArg (val_main_v94 (F := Ideal) x2) (ext2 (Nat.div_one _) rfl)
theorem v109_at (j : Fin 1000) : val_main_v109 (F := Ideal) x2 (ix1 j) = Spec.corners (gbox x2 j) 0 := by
  rw [val_main_v109_apply, val_main_v108_apply, ← gcorner_at]
  exact congrArg (val_main_v94 (F := Ideal) x2) (ext2 (Nat.div_one _) rfl)
theorem v112_at (j : Fin 1000) : val_main_v112 (F := Ideal) x2 (ix1 j) = Spec.corners (gbox x2 j) 3 := by
  rw [val_main_v112_apply, val_main_v111_apply, ← gcorner_at]
  exact congrArg (val_main_v94 (F := Ideal) x2) (ext2 (Nat.div_one _) rfl)
theorem v114_at (j : Fin 1000) : val_main_v114 (F := Ideal) x2 (ix1 j) = Spec.corners (gbox x2 j) 1 := by
  rw [val_main_v114_apply, val_main_v113_apply, ← gcorner_at]
  exact congrArg (val_main_v94 (F := Ideal) x2) (ext2 (Nat.div_one _) rfl)

/-- The ground-truth boxes' areas. -/
theorem garea_at (j : Fin 1000) :
    val_main_v116 (F := Ideal) x2 (ix1 j) = Spec.area (Spec.corners (gbox x2 j)) := by
  rw [val_main_v116_apply, val_main_v110_apply, val_main_v115_apply, v107_at, v109_at, v112_at, v114_at]
  rfl

/-! ### The generalized IoU

The two-column slices of the corner tables, spread over all pairs: column `c` of the slice of columns 0, 1 is corner
`c`, column `c` of the slice of columns 2, 3 is corner `2 + c`. -/

/-- Corner `c` (a low corner), for a column `c` of a two-column slice. -/
abbrev lo (c : Fin 2) : Fin 4 := ⟨c.val, by omega⟩
/-- Corner `2 + c` (a high corner). -/
abbrev hi (c : Fin 2) : Fin 4 := ⟨2 + c.val, by omega⟩

theorem v121_at (n : Fin 14400) (j : Fin 1000) (c : Fin 2) :
    val_main_v121 (F := Ideal) x1 (ix3 n j c) = Spec.corners (pbox x1 n) (lo c) := by
  rw [val_main_v121_apply, val_main_v118_apply, val_main_v117_apply, ← pcorner_at]
  exact congrArg (val_main_v69 (F := Ideal) x1) (ext2 rfl rfl)
theorem v122_at (n : Fin 14400) (j : Fin 1000) (c : Fin 2) :
    val_main_v122 (F := Ideal) x2 (ix3 n j c) = Spec.corners (gbox x2 j) (lo c) := by
  rw [val_main_v122_apply, val_main_v120_apply, val_main_v119_apply, ← gcorner_at]
  exact congrArg (val_main_v94 (F := Ideal) x2) (ext2 rfl rfl)
theorem v128_at (n : Fin 14400) (j : Fin 1000) (c : Fin 2) :
    val_main_v128 (F := Ideal) x1 (ix3 n j c) = Spec.corners (pbox x1 n) (hi c) := by
  rw [val_main_v128_apply, val_main_v125_apply, val_main_v124_apply, ← pcorner_at]
  exact congrArg (val_main_v69 (F := Ideal) x1) (ext2 rfl rfl)
theorem v129_at (n : Fin 14400) (j : Fin 1000) (c : Fin 2) :
    val_main_v129 (F := Ideal) x2 (ix3 n j c) = Spec.corners (gbox x2 j) (hi c) := by
  rw [val_main_v129_apply, val_main_v127_apply, val_main_v126_apply, ← gcorner_at]
  exact congrArg (val_main_v94 (F := Ideal) x2) (ext2 rfl rfl)
theorem v149_at (n : Fin 14400) (j : Fin 1000) (c : Fin 2) :
    val_main_v149 (F := Ideal) x1 (ix3 n j c) = Spec.corners (pbox x1 n) (lo c) := by
  rw [val_main_v149_apply, val_main_v146_apply, val_main_v145_apply, ← pcorner_at]
  exact congrArg (val_main_v69 (F := Ideal) x1) (ext2 rfl rfl)
theorem v150_at (n : Fin 14400) (j : Fin 1000) (c : Fin 2) :
    val_main_v150 (F := Ideal) x2 (ix3 n j c) = Spec.corners (gbox x2 j) (lo c) := by
  rw [val_main_v150_apply, val_main_v148_apply, val_main_v147_apply, ← gcorner_at]
  exact congrArg (val_main_v94 (F := Ideal) x2) (ext2 rfl rfl)
theorem v156_at (n : Fin 14400) (j : Fin 1000) (c : Fin 2) :
    val_main_v156 (F := Ideal) x1 (ix3 n j c) = Spec.corners (pbox x1 n) (hi c) := by
  rw [val_main_v156_apply, val_main_v153_apply, val_main_v152_apply, ← pcorner_at]
  exact congrArg (val_main_v69 (F := Ideal) x1) (ext2 rfl rfl)
theorem v157_at (n : Fin 14400) (j : Fin 1000) (c : Fin 2) :
    val_main_v157 (F := Ideal) x2 (ix3 n j c) = Spec.corners (gbox x2 j) (hi c) := by
  rw [val_main_v157_apply, val_main_v155_apply, val_main_v154_apply, ← gcorner_at]
  exact congrArg (val_main_v94 (F := Ideal) x2) (ext2 rfl rfl)

/-- One side of the intersection, clipped at zero. -/
theorem v132_at (n : Fin 14400) (j : Fin 1000) (c : Fin 2) :
    val_main_v132 (F := Ideal) x1 x2 (ix3 n j c)
      = max Spec.c0 (min (Spec.corners (pbox x1 n) (hi c)) (Spec.corners (gbox x2 j) (hi c))
          - max (Spec.corners (pbox x1 n) (lo c)) (Spec.corners (gbox x2 j) (lo c))) := by
  rw [val_main_v132_apply, val_main_call0_v1_apply, val_main_call0_v0_apply, val_main_cst_19_apply,
    val_main_v131_apply, val_main_v130_apply, val_main_v123_apply, v128_at, v129_at, v121_at, v122_at]
  rfl

/-- One side of the enclosing box, clipped at zero. -/
theorem v160_at (n : Fin 14400) (j : Fin 1000) (c : Fin 2) :
    val_main_v160 (F := Ideal) x1 x2 (ix3 n j c)
      = max Spec.c0 (max (Spec.corners (pbox x1 n) (hi c)) (Spec.corners (gbox x2 j) (hi c))
          - min (Spec.corners (pbox x1 n) (lo c)) (Spec.corners (gbox x2 j) (lo c))) := by
  rw [val_main_v160_apply, val_main_call1_v1_apply, val_main_call1_v0_apply, val_main_cst_20_apply,
    val_main_v159_apply, val_main_v158_apply, val_main_v151_apply, v156_at, v157_at, v149_at, v150_at]
  rfl

/-- A column of a clipped table, flattened, at `(n, j)`: the table at `(n, j, c)`. -/
theorem v134_at (n : Fin 14400) (j : Fin 1000) :
    val_main_v134 (F := Ideal) x1 x2 (ix2 n j) = val_main_v132 (F := Ideal) x1 x2 (ix3 n j (0 : Fin 2)) := by
  rw [val_main_v134_apply, val_main_v133_apply]
  exact congrArg (val_main_v132 (F := Ideal) x1 x2) (ext3
    (by show (n.val * 1000 + j.val) / 1000 = n.val; omega)
    (by show (n.val * 1000 + j.val) / 1 % 1000 = j.val; omega) rfl)
theorem v136_at (n : Fin 14400) (j : Fin 1000) :
    val_main_v136 (F := Ideal) x1 x2 (ix2 n j) = val_main_v132 (F := Ideal) x1 x2 (ix3 n j (1 : Fin 2)) := by
  rw [val_main_v136_apply, val_main_v135_apply]
  exact congrArg (val_main_v132 (F := Ideal) x1 x2) (ext3
    (by show (n.val * 1000 + j.val) / 1000 = n.val; omega)
    (by show (n.val * 1000 + j.val) / 1 % 1000 = j.val; omega) rfl)
theorem v162_at (n : Fin 14400) (j : Fin 1000) :
    val_main_v162 (F := Ideal) x1 x2 (ix2 n j) = val_main_v160 (F := Ideal) x1 x2 (ix3 n j (0 : Fin 2)) := by
  rw [val_main_v162_apply, val_main_v161_apply]
  exact congrArg (val_main_v160 (F := Ideal) x1 x2) (ext3
    (by show (n.val * 1000 + j.val) / 1000 = n.val; omega)
    (by show (n.val * 1000 + j.val) / 1 % 1000 = j.val; omega) rfl)
theorem v164_at (n : Fin 14400) (j : Fin 1000) :
    val_main_v164 (F := Ideal) x1 x2 (ix2 n j) = val_main_v160 (F := Ideal) x1 x2 (ix3 n j (1 : Fin 2)) := by
  rw [val_main_v164_apply, val_main_v163_apply]
  exact congrArg (val_main_v160 (F := Ideal) x1 x2) (ext3
    (by show (n.val * 1000 + j.val) / 1000 = n.val; omega)
    (by show (n.val * 1000 + j.val) / 1 % 1000 = j.val; omega) rfl)

/-- The sum of the two areas, spread over all pairs. -/
theorem v142_at (n : Fin 14400) (j : Fin 1000) :
    val_main_v142 (F := Ideal) x1 x2 (ix2 n j)
      = Spec.area (Spec.corners (pbox x1 n)) + Spec.area (Spec.corners (gbox x2 j)) := by
  rw [val_main_v142_apply, val_main_v140_apply, val_main_v138_apply, val_main_v141_apply, val_main_v139_apply,
    show idx_main_v138 (idx_main_v140 (ix2 n j)) = ix1 n from ext1 rfl,
    show idx_main_v139 (idx_main_v141 (ix2 n j)) = ix1 j from ext1 rfl, parea_at, garea_at]
  rfl

/-- The generalized IoU of the pair `(n, j)`. -/
theorem giou_at (n : Fin 14400) (j : Fin 1000) :
    val_main_v168 (F := Ideal) x1 x2 (ix2 n j)
      = Spec.giouR (Spec.corners (pbox x1 n)) (Spec.corners (gbox x2 j))
          (Spec.area (Spec.corners (pbox x1 n))) (Spec.area (Spec.corners (gbox x2 j))) := by
  rw [val_main_v168_apply, val_main_v144_apply, val_main_v167_apply, val_main_v166_apply, val_main_v165_apply,
    val_main_v143_apply, val_main_v137_apply, v142_at, v134_at, v136_at, v162_at, v164_at,
    v132_at, v132_at, v160_at, v160_at]
  rfl

end Boxes

/-! ## The result -/

/-- The reference's result at entry `(b, q, j)` when label `j` is the word of class `l`. -/
theorem ref_apply (x0 : (⟨S16x900x91, .f32⟩ : BufTy).Contents (Elt Ideal)) (x1 : (⟨S16x900x4, .f32⟩ : BufTy).Contents (Elt Ideal))
    (x2 : (⟨S1000x4, .f32⟩ : BufTy).Contents (Elt Ideal)) (x3 : (⟨S1000, .i32⟩ : BufTy).Contents (Elt Ideal))
    (b : Fin 16) (q : Fin 900) (j : Fin 1000) (l : Fin 91) (hl : (x3 : S1000.Idx → BitVec 32) (ix1 j) = BitVec.ofNat 32 l.val) :
    (val_main_v178 (F := Ideal) x0 x1 x2 x3 : S16x900x1000.Idx → EReal) (ix3 b q j)
      = Spec.costR (fun k : Fin 91 => (x0 : S16x900x91.Idx → EReal) (ix3 b q k)) l
          (fun k : Fin 4 => (x1 : S16x900x4.Idx → EReal) (ix3 b q k)) (fun k : Fin 4 => (x2 : S1000x4.Idx → EReal) (ix2 j k)) := by
  have e178 : idx_main_v178 (ix3 b q j) = ix2 (row b q) j := ext2
    (by show ((b.val * 900 + q.val) * 1000 + j.val) / 1000 = b.val * 900 + q.val; omega)
    (by show ((b.val * 900 + q.val) * 1000 + j.val) % 1000 = j.val; omega)
  have hp : pbox x1 (row b q) = fun k : Fin 4 => (x1 : S16x900x4.Idx → EReal) (ix3 b q k) := funext (v7_at x1 b q)
  rw [val_main_v178_apply, e178, val_main_v177_apply, val_main_v174_apply, val_main_v171_apply, val_main_v170_apply,
    val_main_cst_21_apply, val_main_v173_apply, val_main_v172_apply, val_main_cst_22_apply, val_main_v176_apply,
    val_main_v175_apply, val_main_cst_23_apply, val_main_v169_apply, l1_at, gather_at x0 x3 (row b q) j l hl, focal_at,
    giou_at, hp]
  rfl

end Cert.ReferenceIdeal.RefValue

end
-- ==== Proof.Algebra.lean ====
/- The two costs of a pair are one extended real.
   With the prediction's logits finite the sigmoid is a real in (0, 1), both logarithms are of positive reals, so the
   focal cost is real: the residual `d − d` is zero, a power with exponent two is the product, and the contraction
   against the 0/1 column of the label picks the label's entry. The box terms agree for every extended real:
   the clips differ only in the order of a maximum's arguments, the L1 sums only in association, and
   `a − 2g = a + 2(−g)`. -/
import proofs.«412066_j62371515072731_3_alg».proof.Proof.Spec
import Mathlib.Data.EReal.Operations
import Mathlib.Analysis.SpecialFunctions.Pow.Real

noncomputable section

namespace Cert.Spec

open Idealize.ShloMosaic

/-! ## The literals as extended reals -/

theorem c0_eq : c0 = 0 := by
  simp [Ideal.ofBits, Ideal.ieee]

theorem c1_eq : c1 = 1 := by
  simp [Ideal.ofBits, Ideal.ieee, -EReal.coe_mul]; norm_num

theorem c2_eq : c2 = ((2 : ℝ) : EReal) := by
  simp [Ideal.ofBits, Ideal.ieee, -EReal.coe_mul]; norm_num

theorem c025_eq : c025 = ((1 / 4 : ℝ) : EReal) := by
  simp [Ideal.ofBits, Ideal.ieee, -EReal.coe_mul]; norm_num

theorem c075_eq : c075 = ((3 / 4 : ℝ) : EReal) := by
  simp [Ideal.ofBits, Ideal.ieee, -EReal.coe_mul]; norm_num

theorem ceps_eq : ceps = ((11258999 / 2 ^ 50 : ℝ) : EReal) := by
  simp [Ideal.ofBits, Ideal.ieee, -EReal.coe_mul]; norm_num

/-! ## The contraction against the column of a class -/

/-- A sum against the 0/1 column of class `l` is the entry at `l`. -/
theorem sum_mul_indicator (f : Fin 91 → EReal) (l : Fin 91) :
    (∑ k : Fin 91, f k * (if k = l then (1 : EReal) else 0)) = f l := by
  simp only [mul_ite, mul_one, mul_zero, Finset.sum_ite_eq', Finset.mem_univ, if_true]

/-! ## The focal cost of a real logit -/

/-- The reference's sigmoid is the kernel's. -/
theorem sigR_eq (x : EReal) : sigR x = Ideal.logistic x := by
  unfold sigR Ideal.logistic
  rw [c1_eq]

/-- A real to the power two is its square, as a product. -/
theorem pow_c2_coe (q : ℝ) : Ideal.pow (q : EReal) c2 = (q : EReal) * (q : EReal) := by
  rw [c2_eq, Ideal.pow_coe_coe, Real.rpow_eq_pow, Real.rpow_two, ← EReal.coe_mul, pow_two]

/-- The sigmoid of a real lies strictly between 0 and 1. -/
theorem sig_pos (r : ℝ) : 0 < (1 + Real.exp (-r))⁻¹ := by positivity

theorem sig_lt_one (r : ℝ) : (1 + Real.exp (-r))⁻¹ < 1 :=
  inv_lt_one_of_one_lt₀ (by linarith [Real.exp_pos (-r)])

/-- The logarithm of a positive real plus the small constant is a real logarithm. -/
theorem log_add_ceps (s : ℝ) (hs : 0 < s) :
    Ideal.log ((s : EReal) + ceps) = ((Real.log (s + 11258999 / 2 ^ 50) : ℝ) : EReal) := by
  rw [ceps_eq, ← EReal.coe_add, Ideal.log_coe, if_neg (not_le.mpr (by positivity))]

/-- The kernel's focal cost of a real logit, in closed form: a real. -/
theorem focalK_coe (r : ℝ) :
    focalK (r : EReal)
      = ((1 / 4 * ((1 - (1 + Real.exp (-r))⁻¹) * (1 - (1 + Real.exp (-r))⁻¹))
            * (0 - Real.log ((1 + Real.exp (-r))⁻¹ + 11258999 / 2 ^ 50))
          - 3 / 4 * ((1 + Real.exp (-r))⁻¹ * (1 + Real.exp (-r))⁻¹)
            * (0 - Real.log ((1 - (1 + Real.exp (-r))⁻¹) + 11258999 / 2 ^ 50)) : ℝ) : EReal) := by
  have h0 := sig_pos r
  have h1 := sig_lt_one r
  unfold focalK
  rw [Ideal.logistic_coe, c1_eq, ← EReal.coe_one, ← EReal.coe_sub, log_add_ceps _ h0,
    log_add_ceps _ (sub_pos.mpr h1), c0_eq, ← EReal.coe_zero, c025_eq, c075_eq]
  simp only [← EReal.coe_sub, ← EReal.coe_mul]

/-- The residual of the kernel's focal cost against itself vanishes at a real logit. -/
theorem focalK_sub_self (r : ℝ) : focalK (r : EReal) - focalK (r : EReal) = 0 := by
  rw [focalK_coe, ← EReal.coe_sub, sub_self, EReal.coe_zero]

/-- At a real logit the two focal costs are one. -/
theorem focalK_eq_focalR (r : ℝ) : focalK (r : EReal) = focalR (r : EReal) := by
  unfold focalK focalR
  rw [sigR_eq, Ideal.logistic_coe, c1_eq, ← EReal.coe_one, ← EReal.coe_sub, pow_c2_coe, pow_c2_coe, c0_eq,
    zero_sub, zero_sub]

/-! ## The box terms, at every extended real -/

/-- The two L1 distances differ only in how the four terms are added. -/
theorem l1K_eq_l1R (p g : Fin 4 → EReal) : l1K p g = l1R p g := by
  unfold l1K l1R
  rw [c0_eq, zero_add, Fin.sum_univ_four]

/-- The two generalized IoUs differ only in the order of each clip's arguments. -/
theorem giouK_eq_giouR (a g : Fin 4 → EReal) (sa sg : EReal) : giouK a g sa sg = giouR a g sa sg := by
  unfold giouK giouR
  rw [max_comm c0 (min (a 2) (g 2) - max (a 0) (g 0)), max_comm c0 (min (a 3) (g 3) - max (a 1) (g 1)),
    max_comm c0 (max (a 2) (g 2) - min (a 0) (g 0)), max_comm c0 (max (a 3) (g 3) - min (a 1) (g 1))]

/-! ## The cost of a pair -/

/-- The cost the kernel computes for a pair whose label is class `l` (its 0/1 column is the indicator of `l`) is the
    cost the reference computes, when the prediction's logits are finite. -/
theorem costK_eq_costR (x : Fin 91 → EReal) (hx : ∀ k, ∃ r : ℝ, x k = (r : EReal)) (l : Fin 91) (p g : Fin 4 → EReal) :
    costK x (fun k => if k = l then (1 : EReal) else 0) p g (corners g) (area (corners g)) = costR x l p g := by
  obtain ⟨r, hr⟩ := hx l
  unfold costK costR
  rw [sum_mul_indicator (fun k => focalK (x k)) l, sum_mul_indicator (fun k => focalK (x k) - focalK (x k)) l]
  rw [hr, focalK_sub_self, add_zero, focalK_eq_focalR, l1K_eq_l1R, giouK_eq_giouR, sub_eq_add_neg, mul_neg,
    add_comm (c2 * focalR (r : EReal))]

end Cert.Spec

end
-- ==== Proof.PreFacts.lean ====
/- What the precondition says of the inputs.
   The precondition is a conjunction of five all-reductions: the three float inputs have every entry of magnitude
   below +∞, and every label is at least 0 and below 91 as a signed word. So every logit is a real number, and every
   label word is the word of a class index below 91. -/
import proofs.«412066_j62371515072731_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- The scalar shape has one index. -/
instance subsingleton_S_ : Subsingleton S_.Idx := ⟨fun a b => funext fun d => d.elim0⟩

/-- An extended real whose magnitude `max x (-x)` is below the value of the pattern `0x7F800000`, which is +∞, is
    neither infinity: it is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  simp only [Ideal.cmp, StableHlo.Predicate.ofBool_eq_one_iff, decide_eq_true_eq, max_lt_iff] at h
  induction x using EReal.rec with
  | bot => exact absurd h.2 (by simp)
  | coe r => exact ⟨r, rfl⟩
  | top => exact absurd h.1 (by simp)

/-- A 32-bit word that is at least 0 and below 91 as a signed number is the word of a number below 91: its sign
    bit is clear, so its signed and unsigned readings agree. -/
theorem class_of_range (w : BitVec 32) (h0 : IntOp.cmpi .sge w 0#32 = 1#1) (h1 : IntOp.cmpi .slt w 91#32 = 1#1) :
    ∃ l : Fin 91, w = BitVec.ofNat 32 l.val := by
  unfold IntOp.cmpi at h0 h1
  rw [StableHlo.Predicate.ofBool_eq_one_iff] at h0 h1
  simp only [BitVec.slt, BitVec.sle, decide_eq_true_eq] at h0 h1
  have h32 := w.isLt
  have z0 : (0#32 : BitVec 32).toInt = 0 := by decide
  have z91 : (91#32 : BitVec 32).toInt = 91 := by decide
  rw [z0] at h0
  rw [z91] at h1
  unfold BitVec.toInt at h0 h1
  have hlt : w.toNat < 91 := by
    split at h1 <;> omega
  refine ⟨⟨w.toNat, hlt⟩, ?_⟩
  apply BitVec.eq_of_toNat_eq
  simp only [BitVec.toNat_ofNat]
  omega

/-- The precondition split into its five all-reductions, each read at every element: the three magnitude compares
    and the two label compares. -/
theorem split (a0 : FVec Ideal S16x900x91 .f32) (a1 : FVec Ideal S16x900x4 .f32) (a2 : FVec Ideal S1000x4 .f32)
    (a3 : IVec S1000 32) (h : Cert.Pre_finite_inputs.fn (F := Ideal) a0 a1 a2 a3 = fun _ => 1#1) :
    (∀ i : S16x900x91.Idx, Ideal.cmp .olt (max (a0 i : EReal) (-(a0 i : EReal))) (Ideal.ofBits .f32 0x7F800000#32) = 1#1)
    ∧ (∀ j : S1000.Idx, IntOp.cmpi .sge (a3 j) 0#32 = 1#1)
    ∧ (∀ j : S1000.Idx, IntOp.cmpi .slt (a3 j) 91#32 = 1#1) := by
  have e := congrFun h ix0
  dsimp only [fn, fn_part1] at e
  dsimp only [andi] at e
  simp only [IntOp.andi_eq_one] at e
  obtain ⟨⟨⟨⟨h0, -⟩, -⟩, h3⟩, h4⟩ := e
  exact ⟨fun i => Host.reduce_andi_all _ _ _ _ _ h0 i, fun j => Host.reduce_andi_all _ _ _ _ _ h3 j,
    fun j => Host.reduce_andi_all _ _ _ _ _ h4 j⟩

/-- Under the precondition every logit is a real number. -/
theorem logits_real (a0 : FVec Ideal S16x900x91 .f32) (a1 : FVec Ideal S16x900x4 .f32) (a2 : FVec Ideal S1000x4 .f32)
    (a3 : IVec S1000 32) (h : Cert.Pre_finite_inputs.fn (F := Ideal) a0 a1 a2 a3 = fun _ => 1#1)
    (i : S16x900x91.Idx) : ∃ r : ℝ, a0 i = (r : EReal) :=
  real_of_abs_lt_inf (a0 i) ((split a0 a1 a2 a3 h).1 i)

/-- Under the precondition every label is the word of a class index below 91. -/
theorem label_class (a0 : FVec Ideal S16x900x91 .f32) (a1 : FVec Ideal S16x900x4 .f32) (a2 : FVec Ideal S1000x4 .f32)
    (a3 : IVec S1000 32) (h : Cert.Pre_finite_inputs.fn (F := Ideal) a0 a1 a2 a3 = fun _ => 1#1)
    (j : Fin 1000) : ∃ l : Fin 91, a3 (ix1 j) = BitVec.ofNat 32 l.val :=
  class_of_range (a3 (ix1 j)) ((split a0 a1 a2 a3 h).2.1 (ix1 j)) ((split a0 a1 a2 a3 h).2.2 (ix1 j))

end Cert.PreFacts

end
-- ==== Proof.Bridge.lean ====
/- The two programs return the same array.
   Entry (b, q, j) of the kernel's result is its cost of prediction 900 b + q against column j < 1000 of the staged
   ground-truth tables, which hold ground-truth box j, its corners, its area and the 0/1 column of label j. Under the
   precondition label j is the word of a class index l below 91, so that column is the indicator of l, and the
   prediction's logits are real: the kernel's cost of the pair is the reference's, which is entry (b, q, j) of the
   reference's result. -/
import proofs.«412066_j62371515072731_3_alg».proof.Proof.KIValue
import proofs.«412066_j62371515072731_3_alg».proof.Proof.RefValue
import proofs.«412066_j62371515072731_3_alg».proof.Proof.Algebra
import proofs.«412066_j62371515072731_3_alg».proof.Proof.PreFacts

set_option maxRecDepth 16384

noncomputable section

namespace Cert.Bridge

open Idealize.ShloMosaic Idealize.ShloMosaic.TcCoe Idealize.ShloMosaic.ValueIdx
open Idealize.SL.Sem
open Cert.KernelIdeal Cert.KernelIdeal.Gen Cert.KernelIdeal.Hand

/-- Under the precondition the reference's result, computed from the kernel program's argument arrays, is the array the
    kernel program returns. -/
theorem result_eq (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    Cert.ReferenceIdeal.Read.val_main_v178 (F := Ideal) (m ((c.tc : Thread nD τ).loc main_arg0)) (m ((c.tc : Thread nD τ).loc main_arg1))
      (m ((c.tc : Thread nD τ).loc main_arg2)) (m ((c.tc : Thread nD τ).loc main_arg3)) = resK m c := by
  funext i
  obtain ⟨b, q, j, rfl⟩ : ∃ (b : Fin 16) (q : Fin 900) (j : Fin 1000), i = ix3 b q j := ⟨i 0, i 1, i 2, eq_ix3 i⟩
  -- label j is the word of a class index l below 91, and the reference's entry is its cost of the pair
  obtain ⟨l, hl⟩ := Cert.PreFacts.label_class _ _ _ _ hpre j
  refine (Cert.ReferenceIdeal.RefValue.ref_apply _ _ _ _ b q j l hl).trans ?_
  -- the kernel's entry is its cost of row 900 b + q against column j of the staged tables
  show _ = outAt m c (⟨b.val * 900 + q.val, by have := b.isLt; have := q.isLt; omega⟩ : Fin 14400)
      (⟨j.val, by have := j.isLt; omega⟩ : Fin 1024)
  unfold outAt
  -- row 900 b + q of the merged arrays is row (b, q) of the arguments
  have hb : ∀ h, (⟨(b.val * 900 + q.val) / 900, h⟩ : Fin 16) = b := fun h => Fin.ext (by
    show (b.val * 900 + q.val) / 900 = b.val
    have := q.isLt; omega)
  have hq : ∀ h, (⟨(b.val * 900 + q.val) % 900, h⟩ : Fin 900) = q := fun h => Fin.ext (by
    show (b.val * 900 + q.val) % 900 = q.val
    have := q.isLt; omega)
  have h0 : (fun k : Fin 91 => (V m c main_v0 : S14400x91.Idx → EReal)
        (ix2 (⟨b.val * 900 + q.val, by have := b.isLt; have := q.isLt; omega⟩ : Fin 14400) k))
      = fun k : Fin 91 => (m ((c : Thread nD τ).loc main_arg0) : S16x900x91.Idx → EReal) (ix3 b q k) :=
    funext fun k => (V_v0_apply m c _ k).trans (by rw [hb, hq])
  have h1 : (fun k : Fin 4 => (V m c main_v1 : S14400x4.Idx → EReal)
        (ix2 (⟨b.val * 900 + q.val, by have := b.isLt; have := q.isLt; omega⟩ : Fin 14400) k))
      = fun k : Fin 4 => (m ((c : Thread nD τ).loc main_arg1) : S16x900x4.Idx → EReal) (ix3 b q k) :=
    funext fun k => (V_v1_apply m c _ k).trans (by rw [hb, hq])
  -- column j of the staged tables: ground-truth box j, its corners, its area, and the 0/1 column of its label
  have h8 : (fun k : Fin 4 => (V m c main_v8 : S4x1024.Idx → EReal) (ix2 k (⟨j.val, by have := j.isLt; omega⟩ : Fin 1024)))
      = fun k : Fin 4 => (m ((c : Thread nD τ).loc main_arg2) : S1000x4.Idx → EReal) (ix2 j k) :=
    funext fun k => V_v8_apply m c k j
  have h34 : (fun k : Fin 4 => (V m c main_v34 : S4x1024.Idx → EReal) (ix2 k (⟨j.val, by have := j.isLt; omega⟩ : Fin 1024)))
      = Spec.corners (fun a : Fin 4 => (m ((c : Thread nD τ).loc main_arg2) : S1000x4.Idx → EReal) (ix2 j a)) :=
    funext fun k => V_v34_apply m c k j
  have h46 : (V m c main_v46 : S1x1024.Idx → EReal) (ix2 (0 : Fin 1) (⟨j.val, by have := j.isLt; omega⟩ : Fin 1024))
      = Spec.area (Spec.corners (fun a : Fin 4 => (m ((c : Thread nD τ).loc main_arg2) : S1000x4.Idx → EReal) (ix2 j a))) :=
    V_v46_apply m c j
  -- a class index below 91 is the label's class exactly when its word is the label's word
  have h7 : (fun k : Fin 91 => (V m c main_v7 : S91x1024.Idx → EReal) (ix2 k (⟨j.val, by have := j.isLt; omega⟩ : Fin 1024)))
      = fun k : Fin 91 => if k = l then (1 : EReal) else 0 :=
    funext fun k => (V_v7_apply m c k j).trans (by
      have hw : (m ((c : Thread nD τ).loc main_arg3) : S1000.Idx → BitVec 32) (ix1 j) = BitVec.ofNat 32 l.val := hl
      rw [hw]
      have hiff : (BitVec.ofNat 32 l.val = BitVec.ofNat 32 k.val) ↔ k = l := by
        constructor
        · intro e
          have e' := congrArg BitVec.toNat e
          simp only [BitVec.toNat_ofNat] at e'
          have hk := k.isLt
          have hl' := l.isLt
          exact Fin.ext (by omega)
        · rintro rfl; rfl
      by_cases hkl : k = l
      · rw [if_pos (hiff.mpr hkl), if_pos hkl]
      · rw [if_neg (fun e => hkl (hiff.mp e)), if_neg hkl])
  rw [h0, h7, h1, h8, h34, h46]
  exact (Spec.costK_eq_costR _ (fun k => Cert.PreFacts.logits_real _ _ _ _ hpre (ix3 b q k)) l _ _).symm

end Cert.Bridge

end
-- ==== Proof.lean ====
/- A matching cost between 14400 predicted boxes and 1000 ground-truth boxes: for every pair,
   2 · (focal classification cost at the ground truth's label) + 5 · (L1 distance of the boxes) − 2 · (their generalized IoU).
   The kernel computes the classification term by contracting the per-class focal cost against a one-hot table of the
   labels (in two passes: the cost and a residual), on ground-truth tables padded from 1000 to 1024 columns that the lines
   after its region drop again; the reference gathers the label's column. Under the precondition — finite float inputs,
   labels in [0, 91) — both return, entry by entry, the same extended reals.
   The three frames: the kernel program's two readings run the host lines, the ten grid points of the region and the
   two closing lines without fault and never write an argument; the reference is a straight line of host operations.
   The idealized kernel differs from the kernel as printed by one widening of a narrowed value, the identity on
   extended reals. -/
import proofs.«412066_j62371515072731_3_alg».proof.Defs
import proofs.«412066_j62371515072731_3_alg».proof.Proof.Gen.Kernel
import proofs.«412066_j62371515072731_3_alg».proof.Proof.Gen.KernelIdeal
import proofs.«412066_j62371515072731_3_alg».proof.Proof.Gen.ReferenceIdeal
import proofs.«412066_j62371515072731_3_alg».proof.Proof.Gen.Pre_finite_inputs
import proofs.«412066_j62371515072731_3_alg».proof.Proof.KFrame
import proofs.«412066_j62371515072731_3_alg».proof.Proof.KIResult
import proofs.«412066_j62371515072731_3_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.Hand.frame m ρ

/-- So does its reading on extended reals. -/
theorem frame_kernelIdeal : Cert.frame_KernelIdeal := fun m ρ _ => Cert.KernelIdeal.Hand.frame m ρ

/-- The reference is host operations only: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Widening back a value narrowed to half the width is the identity on extended reals, and the rounding through the
    narrow format on words. -/
theorem preserves : Cert.preserves_Kernel_KernelIdeal :=
  IdealRules.truncf_extf.statement Cert.KernelIdeal.S1440x91 .f32 .bf16

/-- From memories that agree on the arguments both programs end with the array of pair costs. -/
theorem algebraic : Cert.algebraic_KernelIdeal_ReferenceIdeal := by
  intro m ρ m' ρ' hpre hagree
  refine ⟨fun c => Cert.KernelIdeal.Hand.resK m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v178_eq, (hagree c).1, (hagree c).2.1, (hagree c).2.2.1, (hagree c).2.2.2]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
